-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x16 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg6
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x16 .f32) (main_arg7 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S1x16 : Shape := ⟨2, ![1, 16]⟩
abbrev S10000x16 : Shape := ⟨2, ![10000, 16]⟩
abbrev S200x10000 : Shape := ⟨2, ![200, 10000]⟩
abbrev S200x64 : Shape := ⟨2, ![200, 64]⟩
abbrev S400x10000 : Shape := ⟨2, ![400, 10000]⟩
abbrev S400x16 : Shape := ⟨2, ![400, 16]⟩
abbrev S400x64 : Shape := ⟨2, ![400, 64]⟩
abbrev S400 : Shape := ⟨1, ![400]⟩
abbrev S400x1 : Shape := ⟨2, ![400, 1]⟩

abbrev nBuf : Space → Nat
  | .hbm => 19
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S128x64, .bf16⟩
  | .hbm, ⟨9, _⟩ => ⟨S64x64, .bf16⟩
  | .hbm, ⟨10, _⟩ => ⟨S64x16, .bf16⟩
  | .hbm, ⟨11, _⟩ => ⟨S10000x64, .bf16⟩
  | .hbm, ⟨12, _⟩ => ⟨S1x64, .f32⟩
  | .hbm, ⟨13, _⟩ => ⟨S1x64, .f32⟩
  | .hbm, ⟨14, _⟩ => ⟨S1x16, .f32⟩
  | .hbm, ⟨15, _⟩ => ⟨S10000x64, .bf16⟩
  | .hbm, ⟨16, _⟩ => ⟨S10000x10000, .bf16⟩
  | .hbm, ⟨17, _⟩ => ⟨S10000x16, .bf16⟩
  | .hbm, ⟨18, _⟩ => ⟨S10000x16, .f32⟩
  | .local _ .vmem, ⟨0, _⟩ => ⟨S10000x128, .f32⟩
  | .local _ .vmem, ⟨1, _⟩ => ⟨S128x64, .bf16⟩
  | .local _ .vmem, ⟨2, _⟩ => ⟨S10000x64, .bf16⟩
  | .local _ .vmem, ⟨3, _⟩ => ⟨S200x10000, .f32⟩
  | .local _ .vmem, ⟨4, _⟩ => ⟨S200x10000, .f32⟩
  | .local _ .vmem, ⟨5, _⟩ => ⟨S10000x64, .bf16⟩
  | .local _ .vmem, ⟨6, _⟩ => ⟨S1x64, .f32⟩
  | .local _ .vmem, ⟨7, _⟩ => ⟨S64x64, .bf16⟩
  | .local _ .vmem, ⟨8, _⟩ => ⟨S200x64, .bf16⟩
  | .local _ .vmem, ⟨9, _⟩ => ⟨S200x64, .bf16⟩
  | .local _ .vmem, ⟨10, _⟩ => ⟨S200x10000, .bf16⟩
  | .local _ .vmem, ⟨11, _⟩ => ⟨S200x10000, .bf16⟩
  | .local _ .vmem, ⟨12, _⟩ => ⟨S400x10000, .bf16⟩
  | .local _ .vmem, ⟨13, _⟩ => ⟨S400x10000, .bf16⟩
  | .local _ .vmem, ⟨14, _⟩ => ⟨S10000x64, .bf16⟩
  | .local _ .vmem, ⟨15, _⟩ => ⟨S1x64, .f32⟩
  | .local _ .vmem, ⟨16, _⟩ => ⟨S64x16, .bf16⟩
  | .local _ .vmem, ⟨17, _⟩ => ⟨S400x16, .bf16⟩
  | .local _ .vmem, ⟨18, _⟩ => ⟨S400x16, .bf16⟩
  | .local _ .vmem, ⟨19, _⟩ => ⟨S400x10000, .bf16⟩
  | .local _ .vmem, ⟨20, _⟩ => ⟨S400x10000, .bf16⟩
  | .local _ .vmem, ⟨21, _⟩ => ⟨S10000x16, .bf16⟩
  | .local _ .vmem, ⟨22, _⟩ => ⟨S1x16, .f32⟩
  | .local _ .vmem, ⟨23, _⟩ => ⟨S400x16, .f32⟩
  | .local _ .vmem, ⟨24, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7_0 : Ref sig .tc := ⟨.hbm, 15, rfl⟩
abbrev main_call0_v7_1 : Ref sig .tc := ⟨.hbm, 16, rfl⟩
abbrev main_call0_v8 : Ref sig .tc := ⟨.hbm, 17, rfl⟩
abbrev main_v0 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x16 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x16 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bitsLt_bf16_f32 : FTy.bits .bf16 < FTy.bits .f32
  shapeCasts_S64_S1x64 : S64.ShapeCasts S1x64
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S200x64_S200x64_0_0 : ∀ a, (![0, 0] : Fin 2 → Nat) a + S200x64.size a ≤ S200x64.size a
  h_S200x64 : 0 < S200x64.numel
  packedbf16_S200x64_S200x64_0_0 : (Rect.unit (s := S200x64) ![0, 0] S200x64.size inb_S200x64_S200x64_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  broadcasts_S1x64_S400x64 : S1x64.Broadcasts S400x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S400x16_S400x16_0_0 : ∀ a, (![0, 0] : Fin 2 → Nat) a + S400x16.size a ≤ S400x16.size a
  h_S400x16 : 0 < S400x16.numel
  packedbf16_S400x16_S400x16_0_0 : (Rect.unit (s := S400x16) ![0, 0] S400x16.size inb_S400x16_S400x16_0_0).PackedRows (EltTy.packing .bf16)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  reduces_S400x16_S400 : S400x16.Reduces [1] S400
  shapeCasts_S400_S400x1 : S400.ShapeCasts S400x1
  broadcasts_S400x1_S400x16 : S400x1.Broadcasts S400x16
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S200x64_S64x64_S200x64_1_0_0_1_n_n_wf : DotDims.WF S200x64 S64x64 S200x64 [1] [0] [0] [1] [] []
  dot_S400x10000_S10000x64_S400x64_1_0_0_1_n_n_wf : DotDims.WF S400x10000 S10000x64 S400x64 [1] [0] [0] [1] [] []
  dot_S400x64_S64x16_S400x16_1_0_0_1_n_n_wf : DotDims.WF S400x64 S64x16 S400x16 [1] [0] [0] [1] [] []
  dot_S400x10000_S10000x16_S400x16_1_0_0_1_n_n_wf : DotDims.WF S400x10000 S10000x16 S400x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .bf16 = 32 ∨ (Rect.block (s := S10000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x64.size a ≤ S10000x64.size a
  hwx1_4 : ∀ i : grid1.Coords, EltTy.bits .bf16 = 32 ∨ (Rect.block (s := S10000x64) S200x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x10000.size a ≤ S10000x10000.size a
  hwx1_5 : ∀ i : grid1.Coords, EltTy.bits .bf16 = 32 ∨ (Rect.block (s := S10000x10000) S200x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x16.size a ≤ S64x16.size a
  hwx2_3 : ∀ i : grid2.Coords, EltTy.bits .bf16 = 32 ∨ (Rect.block (s := S64x16) S64x16.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x16.size a ≤ S10000x16.size a
  hwx2_4 : ∀ i : grid2.Coords, EltTy.bits .bf16 = 32 ∨ (Rect.block (s := S10000x16) S400x16.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .bf16 = 32 ∨ (Rect.block (s := S10000x16) S10000x16.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x16.size a ≤ S10000x16.size a
  hwx3_3 : ∀ i : grid3.Coords, EltTy.bits .f32 = 32 ∨ (Rect.block (s := S10000x16) S400x16.size (cc3_transform_3 i) (hinb3_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x16_S400x16_1_0_0_1_n_n : DotDims S400x64 S64x16 S400x16 where
  lhsContracting := [1]
  rhsContracting := [0]
  lhsNonContracting := [0]
  rhsNonContracting := [1]
  lhsBatch := []
  rhsBatch := []
  wf := dot_S400x64_S64x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_call0_v0) false false (stage0_1 0) (sem0_1 0) (Memref.isWhole_whole _) (hstage0_1 0)

abbrev win0_2 : Pipeline.Window sig grid0 :=
  Pipeline.Window.whole (Memref.whole main_call0_v3) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v4) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v7_0) S200x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v7_1) S200x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v7_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v7_0) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v5) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v2) S64x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v8) S400x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_call0_v7_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v8) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v6) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v0) S400x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S10000x64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x16, .f32⟩
  | .hbm, ⟨25, _⟩ => ⟨S10000x16, .f32⟩
  | .hbm, ⟨26, _⟩ => ⟨S1x16, .f32⟩
  | .hbm, ⟨27, _⟩ => ⟨S10000x16, .f32⟩
  | .hbm, ⟨28, _⟩ => ⟨S10000x16, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x16, .f32⟩
  | .hbm, ⟨36, _⟩ => ⟨S10000x16, .f32⟩
  | .hbm, ⟨37, _⟩ => ⟨S10000x16, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x16, .f32⟩
  | .hbm, ⟨43, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_call0_cst_0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_cst_1 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_v19 : Ref sig .tc := ⟨.hbm, 43, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Spec.lean ====
/-
  The mathematics both programs compute, over the extended reals, written once.

  Arrays are functions of an index; a matrix product is the finite sum over the shared axis.  A graph-convolution
  layer takes an operator A (rows of the adjacency), a support matrix S and a bias row b, and forms
  max (A · S + b, 0); the next layer's support is that hidden matrix times a weight matrix.  Three such layers
  are stacked, the last without the max and the weight, and each row of the last result is normalised by the
  log-softmax:  h − (log Σ exp (h − M) + M)  with M the row's maximum, or, associated differently,
  (h − M) − log Σ exp (h − M).  The two associations agree as soon as M is a real number, because subtraction of a
  real commutes with addition on the extended reals; M is real when the row is real and nonempty.  Sums, products
  and maxima of reals are real, so every stage of the network is real-valued when the inputs are.
-/
import Idealize.ShloMosaic.PureOps.Ideal.Laws
import Idealize.ShloMosaic.Lib.ValueIdx

noncomputable section

open scoped BigOperators

namespace Cert.Gcn

open Idealize.ShloMosaic Idealize.ShloMosaic.ValueIdx

/-- The shape of an a × b matrix, and of a vector of length a. -/
abbrev Sh2 (a b : Nat) : Shape := ⟨2, ![a, b]⟩
abbrev Sh1 (a : Nat) : Shape := ⟨1, ![a]⟩
/-- Matrices and vectors of extended reals. -/
abbrev A2 (a b : Nat) := (Sh2 a b).Idx → EReal
abbrev A1 (a : Nat) := (Sh1 a).Idx → EReal

variable {M K N D E : Nat}

/-- Rows times columns. -/
def mm (l : A2 M K) (r : A2 K N) : A2 M N := fun j => ∑ k : Fin K, l (ix2 (j 0) k) * r (ix2 k (j 1))

/-- A · S plus the bias row (kept as a 1 × D matrix), before the max. -/
def pre (A : A2 M K) (S : A2 K D) (b : A2 1 D) : A2 M D := fun j => mm A S j + b (ix2 0 (j 1))

/-- The hidden matrix of a layer: max (A · S + b, 0). -/
def hid (A : A2 M K) (S : A2 K D) (b : A2 1 D) : A2 M D := fun j => max (pre A S b j) 0

/-- A layer followed by the next layer's weight transform. -/
def layer (A : A2 M K) (S : A2 K D) (b : A2 1 D) (W : A2 D E) : A2 M E := mm (hid A S b) W

/-- A row's maximum (the fold of max from the bottom element). -/
def rowMax (h : A2 M D) (i : Fin M) : EReal := (Finset.univ : Finset (Fin D)).fold max ⊥ (fun k => h (ix2 i k))

/-- log Σ exp (h − M) over a row. -/
def rowLse (h : A2 M D) (i : Fin M) : EReal := Ideal.log (∑ k : Fin D, Ideal.exp (h (ix2 i k) - rowMax h i))

/-- The log-softmax as the kernel associates it. -/
def lsmK (h : A2 M D) : A2 M D := fun j => h j - (rowLse h (j 0) + rowMax h (j 0))

/-- The log-softmax as the reference associates it. -/
def lsmR (h : A2 M D) : A2 M D := fun j => (h j - rowMax h (j 0)) - rowLse h (j 0)

/-- The bias vector as a 1 × D row. -/
def rowOf (b : A1 D) : A2 1 D := fun j => b (ix1 (j 1))

/-! ## The three stacked layers -/

def net2 (x : A2 N K) (adj : A2 N N) (W1 : A2 K D) (b1 : A1 D) (W2 : A2 D E) : A2 N E :=
  layer adj (mm x W1) (rowOf b1) W2

def net3 {E' : Nat} (x : A2 N K) (adj : A2 N N) (W1 : A2 K D) (b1 : A1 D) (W2 : A2 D E) (b2 : A1 E) (W3 : A2 E E') : A2 N E' :=
  layer adj (net2 x adj W1 b1 W2) (rowOf b2) W3

def logits {E' : Nat} (x : A2 N K) (adj : A2 N N) (W1 : A2 K D) (b1 : A1 D) (W2 : A2 D E) (b2 : A1 E) (W3 : A2 E E') (b3 : A1 E') : A2 N E' :=
  pre adj (net3 x adj W1 b1 W2 b2 W3) (rowOf b3)

/-! ## Rows: a stage's row i depends on the operator only through its row i -/

theorem pre_row {M' : Nat} (A : A2 M K) (A' : A2 M' K) (S : A2 K D) (b : A2 1 D) (p : Fin M') (i : Fin M)
    (h : ∀ k, A' (ix2 p k) = A (ix2 i k)) (q : Fin D) : pre A' S b (ix2 p q) = pre A S b (ix2 i q) := by
  unfold pre mm
  exact congrArg (· + b (ix2 0 q)) (Finset.sum_congr rfl fun k _ => by rw [show A' (ix2 ((ix2 p q : (Sh2 M' D).Idx) 0) k) = A' (ix2 p k) from rfl, h k]; rfl)

theorem hid_row {M' : Nat} (A : A2 M K) (A' : A2 M' K) (S : A2 K D) (b : A2 1 D) (p : Fin M') (i : Fin M)
    (h : ∀ k, A' (ix2 p k) = A (ix2 i k)) (q : Fin D) : hid A' S b (ix2 p q) = hid A S b (ix2 i q) := by
  unfold hid; rw [pre_row A A' S b p i h q]

theorem layer_row {M' : Nat} (A : A2 M K) (A' : A2 M' K) (S : A2 K D) (b : A2 1 D) (W : A2 D E) (p : Fin M') (i : Fin M)
    (h : ∀ k, A' (ix2 p k) = A (ix2 i k)) (q : Fin E) : layer A' S b W (ix2 p q) = layer A S b W (ix2 i q) := by
  unfold layer mm
  exact Finset.sum_congr rfl fun l _ => congrArg (· * W (ix2 l q)) (hid_row A A' S b p i h l)

theorem rowMax_row {M' : Nat} (h : A2 M D) (h' : A2 M' D) (p : Fin M') (i : Fin M) (e : ∀ k, h' (ix2 p k) = h (ix2 i k)) :
    rowMax h' p = rowMax h i := by
  unfold rowMax; rw [show (fun k => h' (ix2 p k)) = fun k => h (ix2 i k) from funext e]

theorem rowLse_row {M' : Nat} (h : A2 M D) (h' : A2 M' D) (p : Fin M') (i : Fin M) (e : ∀ k, h' (ix2 p k) = h (ix2 i k)) :
    rowLse h' p = rowLse h i := by
  unfold rowLse; rw [rowMax_row h h' p i e]; exact congrArg _ (Finset.sum_congr rfl fun k _ => by rw [e k])

theorem lsmK_row {M' : Nat} (h : A2 M D) (h' : A2 M' D) (p : Fin M') (i : Fin M) (e : ∀ k, h' (ix2 p k) = h (ix2 i k)) (q : Fin D) :
    lsmK h' (ix2 p q) = lsmK h (ix2 i q) := by
  unfold lsmK
  rw [show ((ix2 p q : (Sh2 M' D).Idx) 0) = p from rfl, show ((ix2 i q : (Sh2 M D).Idx) 0) = i from rfl,
    rowLse_row h h' p i e, rowMax_row h h' p i e, e q]

/-! ## Real-valued arrays -/

/-- Every entry is a real number. -/
def IsReal {S : Shape} (v : S.Idx → EReal) : Prop := ∀ i, ∃ r : ℝ, v i = (r : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_mm {l : A2 M K} {r : A2 K N} (hl : IsReal l) (hr : IsReal r) : IsReal (mm l r) := by
  choose fl hfl using hl
  choose fr hfr using hr
  intro j
  refine ⟨∑ k : Fin K, fl (ix2 (j 0) k) * fr (ix2 k (j 1)), ?_⟩
  unfold mm
  rw [coe_sum]
  exact Finset.sum_congr rfl fun k _ => by rw [hfl, hfr, EReal.coe_mul]

theorem isReal_rowOf {b : A1 D} (hb : IsReal b) : IsReal (rowOf b) := fun j => hb _

theorem isReal_pre {A : A2 M K} {S : A2 K D} {b : A2 1 D} (hA : IsReal A) (hS : IsReal S) (hb : IsReal b) : IsReal (pre A S b) := by
  intro j
  obtain ⟨r, hr⟩ := isReal_mm hA hS j
  obtain ⟨s, hs⟩ := hb (ix2 0 (j 1))
  exact ⟨r + s, by unfold pre; rw [hr, hs, EReal.coe_add]⟩

theorem isReal_hid {A : A2 M K} {S : A2 K D} {b : A2 1 D} (hA : IsReal A) (hS : IsReal S) (hb : IsReal b) : IsReal (hid A S b) := by
  intro j
  obtain ⟨r, hr⟩ := isReal_pre hA hS hb j
  exact ⟨max r 0, by unfold hid; rw [hr, ← EReal.coe_zero]; exact (EReal.coe_strictMono.monotone.map_max).symm⟩

theorem isReal_layer {A : A2 M K} {S : A2 K D} {b : A2 1 D} {W : A2 D E} (hA : IsReal A) (hS : IsReal S) (hb : IsReal b) (hW : IsReal W) :
    IsReal (layer A S b W) := isReal_mm (isReal_hid hA hS hb) hW

theorem isReal_logits {E' : Nat} {x : A2 N K} {adj : A2 N N} {W1 : A2 K D} {b1 : A1 D} {W2 : A2 D E} {b2 : A1 E} {W3 : A2 E E'} {b3 : A1 E'}
    (hx : IsReal x) (hadj : IsReal adj) (hW1 : IsReal W1) (hb1 : IsReal b1) (hW2 : IsReal W2) (hb2 : IsReal b2) (hW3 : IsReal W3) (hb3 : IsReal b3) :
    IsReal (logits x adj W1 b1 W2 b2 W3 b3) :=
  isReal_pre hadj (isReal_layer hadj (isReal_layer hadj (isReal_mm hx hW1) (isReal_rowOf hb1) hW2) (isReal_rowOf hb2) hW3) (isReal_rowOf hb3)

/-- The maximum of finitely many reals, folded from the bottom element, is the bottom element or a real. -/
theorem fold_max_real {ι : Type*} (s : Finset ι) (f : ι → EReal) (hf : ∀ x ∈ s, ∃ r : ℝ, f x = (r : EReal)) :
    s.fold max ⊥ f = ⊥ ∨ ∃ r : ℝ, s.fold max ⊥ f = (r : EReal) := by
  classical
  induction s using Finset.induction_on with
  | empty => exact Or.inl rfl
  | insert a s ha ih =>
    rw [Finset.fold_insert ha]
    obtain ⟨ra, hra⟩ := hf a (Finset.mem_insert_self a s)
    rcases ih (fun x hx => hf x (Finset.mem_insert_of_mem hx)) with h | ⟨r, h⟩
    · exact Or.inr ⟨ra, by rw [h, hra, max_eq_left bot_le]⟩
    · exact Or.inr ⟨max ra r, by rw [h, hra]; exact (EReal.coe_strictMono.monotone.map_max).symm⟩

/-- A nonempty real row has a real maximum. -/
theorem rowMax_real {h : A2 M (D + 1)} (hh : IsReal h) (i : Fin M) : ∃ r : ℝ, rowMax h i = (r : EReal) := by
  rcases fold_max_real Finset.univ (fun k : Fin (D + 1) => h (ix2 i k)) (fun k _ => hh _) with hb | hr
  · exfalso
    obtain ⟨r, hr⟩ := hh (ix2 i (0 : Fin (D + 1)))
    have hle : h (ix2 i (0 : Fin (D + 1))) ≤ (Finset.univ : Finset (Fin (D + 1))).fold max ⊥ (fun k => h (ix2 i k)) :=
      (Finset.le_fold_max _).mpr (Or.inr ⟨0, Finset.mem_univ _, le_rfl⟩)
    rw [hb, hr] at hle
    exact (EReal.coe_ne_bot r) (le_bot_iff.mp hle)
  · exact hr

/-- Subtracting a sum whose second term is real: the two associations of the log-softmax. -/
theorem sub_add_real (a L : EReal) (m : ℝ) : a - (L + (m : EReal)) = (a - (m : EReal)) - L := by
  rw [sub_eq_add_neg, sub_eq_add_neg, sub_eq_add_neg,
    EReal.neg_add (Or.inr (EReal.coe_ne_top m)) (Or.inr (EReal.coe_ne_bot m)), sub_eq_add_neg, add_comm (-L), ← add_assoc]

/-- On a real-valued matrix with nonempty rows the two log-softmax forms are one function. -/
theorem lsmK_eq_lsmR {h : A2 M (D + 1)} (hh : IsReal h) : lsmK h = lsmR h := by
  funext j
  obtain ⟨m, hm⟩ := rowMax_real hh (j 0)
  unfold lsmK lsmR
  rw [hm, sub_add_real]

end Cert.Gcn

end
-- ==== Proof.LibRowsByCols.lean ====
/-
  A MATRIX PRODUCT OF THE LEFT OPERAND'S ROWS WITH THE RIGHT OPERAND'S COLUMNS, READ AT AN INDEX (general lemmas; they
  mention no program).

  Take dimension numbers of a product [M, K] × [K, N] → [M, N] that contract the left operand's axis 1 with the right
  operand's axis 0, keep the left axis 0 and the right axis 1, and have no batch axes: the plain x · w. The contraction
  index set has one axis of extent K, so it is Fin K; the left operand's index at result index (i, j) and contraction
  position k is (i, k), the right operand's is (k, j). Hence on the extended reals the vector unit's
  accumulate-into-zero product is, at (i, j), the finite sum over k of l (i, k) · r (k, j).
-/
import Idealize.ShloMosaic.PureOps.Ideal.Laws
import Idealize.ShloMosaic.Lib.ValueIdx

noncomputable section

open scoped BigOperators

namespace Cert.Lib.RowsByCols

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of x · w: contract left axis 1 with right axis 0, keep left axis 0 and right
    axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

end Cert.Lib.RowsByCols

end
-- ==== Proof.LibKeepdims.lean ====
/-
  Two layout operations of a row reduction kept as a column (`keepdims`), read at an index: a vector `[a]` recast as a
  column `[a, 1]`, and a column `[a, 1]` broadcast along the rows of `[a, b]`.  Composed, entry `(p, c)` of the
  broadcast of the recast vector is entry `p` of the vector.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array recast as the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector recast as a column and broadcast along the rows reads, at `(p, c)`, the vector at `p`. -/
theorem broadcastTo_shapeCast_column_apply {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims
-- ==== Proof.Payloads.lean ====
/-
  What each kernel body stores, as a function of the blocks it loads, at the extended reals.

  A change of float format is the identity, a recast to the same shape is the identity, the vector unit's product into
  a zero accumulator is the finite sum over the contracted axis, a [1, d] row broadcast over the rows reads its one
  row, and a row reduction kept as a column and broadcast back reads the reduction at the row.  So the first body stores
  x · W1; the second and third store a whole layer  max (A · S + b, 0) · W  on their rows of the adjacency (the second
  also a copy of those rows); the last stores  h − (log Σ exp (h − M) + M)  with h = A · S + b and M the row maximum.
-/
import proofs.«177736_g29712583753982_cont_8to1_b_47_6_alg».proof.Proof.Gen.KernelIdeal.Frame
import proofs.«177736_g29712583753982_cont_8to1_b_47_6_alg».proof.Proof.Spec
import proofs.«177736_g29712583753982_cont_8to1_b_47_6_alg».proof.Proof.LibRowsByCols
import proofs.«177736_g29712583753982_cont_8to1_b_47_6_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn Cert.Lib

/-- Region 0's stored block: the product of the rows of x with the columns of W1. -/
theorem pay0 (x0 : Vec Ideal S10000x128 .f32) (x1 : Vec Ideal S128x64 .bf16) :
    k0_pay1 x0 x1 = mm (M := 10000) (K := 128) (N := 64) x0 x1 := by
  funext j
  unfold k0_pay1
  show FloatOps.matmul (F := Ideal) (φ₁ := .bf16) (φ₂ := .bf16) dot_S10000x128_S128x64_S10000x64_1_0_0_1_n_n none _ _ (constant (F := Ideal) S10000x64 .f32 0x00000000#32) j = _
  rw [RowsByCols.matmul_zero_apply ⟨rfl, rfl, rfl, rfl, rfl, rfl⟩, shapeCast_self]
  rfl

/-- Region 1's copy of the adjacency rows: a change of format only. -/
theorem pay1_copy (x0 : Vec Ideal S200x10000 .f32) : k1_pay1 x0 = x0 := rfl

theorem pay1_at (x0 : Vec Ideal S200x10000 .f32) (x1 : Vec Ideal S10000x64 .bf16) (x2 : Vec Ideal S1x64 .f32) (x3 : Vec Ideal S64x64 .bf16)
    (p : Fin 200) (q : Fin 64) :
    k1_pay2 x0 x1 x2 x3 (ix2 p q) = layer (M := 200) (K := 10000) (D := 64) (E := 64) x0 x1 x2 x3 (ix2 p q) := by
  unfold k1_pay2
  simp only [shapeCast_self]
  show FloatOps.matmul (F := Ideal) (φ₁ := .bf16) (φ₂ := .bf16) dot_S200x64_S64x64_S200x64_1_0_0_1_n_n none _ _ (constant (F := Ideal) S200x64 .f32 0x00000000#32) (ix2 p q) = _
  rw [RowsByCols.matmul_zero_apply ⟨rfl, rfl, rfl, rfl, rfl, rfl⟩]
  unfold layer mm
  refine Finset.sum_congr rfl fun l _ => ?_
  show _ * x3 (ix2 l q) = hid x0 x1 x2 (ix2 p l) * x3 (ix2 l q)
  refine congrArg (· * x3 (ix2 l q)) ?_
  show max (FloatOps.matmul (F := Ideal) (φ₁ := .bf16) (φ₂ := .bf16) dot_S200x10000_S10000x64_S200x64_1_0_0_1_n_n none _ _ (constant (F := Ideal) S200x64 .f32 0x00000000#32) (ix2 p l)
      + broadcastTo S200x64 x2 broadcasts_S1x64_S200x64 (ix2 p l)) (Ideal.ofBits .f32 0x00000000#32)
    = max ((∑ k : Fin 10000, x0 (ix2 p k) * x1 (ix2 k l)) + x2 (ix2 0 l)) 0
  rw [RowsByCols.matmul_zero_apply ⟨rfl, rfl, rfl, rfl, rfl, rfl⟩, broadcastTo_1b_ab_apply, Ideal.ofBits_zero_f32]
  all_goals rfl

theorem pay1 (x0 : Vec Ideal S200x10000 .f32) (x1 : Vec Ideal S10000x64 .bf16) (x2 : Vec Ideal S1x64 .f32) (x3 : Vec Ideal S64x64 .bf16) :
    k1_pay2 x0 x1 x2 x3 = layer (M := 200) (K := 10000) (D := 64) (E := 64) x0 x1 x2 x3 := by
  funext j
  obtain ⟨p, q, rfl⟩ : ∃ (p : Fin 200) (q : Fin 64), j = ix2 p q := ⟨j 0, j 1, eq_ix2 j⟩
  exact pay1_at x0 x1 x2 x3 p q

theorem pay2_at (x0 : Vec Ideal S400x10000 .bf16) (x1 : Vec Ideal S10000x64 .bf16) (x2 : Vec Ideal S1x64 .f32) (x3 : Vec Ideal S64x16 .bf16)
    (p : Fin 400) (q : Fin 16) :
    k2_pay1 x0 x1 x2 x3 (ix2 p q) = layer (M := 400) (K := 10000) (D := 64) (E := 16) x0 x1 x2 x3 (ix2 p q) := by
  unfold k2_pay1
  simp only [shapeCast_self]
  show FloatOps.matmul (F := Ideal) (φ₁ := .bf16) (φ₂ := .bf16) dot_S400x64_S64x16_S400x16_1_0_0_1_n_n none _ _ (constant (F := Ideal) S400x16 .f32 0x00000000#32) (ix2 p q) = _
  rw [RowsByCols.matmul_zero_apply ⟨rfl, rfl, rfl, rfl, rfl, rfl⟩]
  unfold layer mm
  refine Finset.sum_congr rfl fun l _ => ?_
  show _ * x3 (ix2 l q) = hid x0 x1 x2 (ix2 p l) * x3 (ix2 l q)
  refine congrArg (· * x3 (ix2 l q)) ?_
  show max (FloatOps.matmul (F := Ideal) (φ₁ := .bf16) (φ₂ := .bf16) dot_S400x10000_S10000x64_S400x64_1_0_0_1_n_n none _ _ (constant (F := Ideal) S400x64 .f32 0x00000000#32) (ix2 p l)
      + broadcastTo S400x64 x2 broadcasts_S1x64_S400x64 (ix2 p l)) (Ideal.ofBits .f32 0x00000000#32)
    = max ((∑ k : Fin 10000, x0 (ix2 p k) * x1 (ix2 k l)) + x2 (ix2 0 l)) 0
  rw [RowsByCols.matmul_zero_apply ⟨rfl, rfl, rfl, rfl, rfl, rfl⟩, broadcastTo_1b_ab_apply, Ideal.ofBits_zero_f32]
  all_goals rfl

theorem pay2 (x0 : Vec Ideal S400x10000 .bf16) (x1 : Vec Ideal S10000x64 .bf16) (x2 : Vec Ideal S1x64 .f32) (x3 : Vec Ideal S64x16 .bf16) :
    k2_pay1 x0 x1 x2 x3 = layer (M := 400) (K := 10000) (D := 64) (E := 16) x0 x1 x2 x3 := by
  funext j
  obtain ⟨p, q, rfl⟩ : ∃ (p : Fin 400) (q : Fin 16), j = ix2 p q := ⟨j 0, j 1, eq_ix2 j⟩
  exact pay2_at x0 x1 x2 x3 p q

/-- The f32 pattern of minus infinity is the bottom element. -/
theorem neg_inf_pat : Ideal.ofBits .f32 0xFF800000#32 = (⊥ : EReal) := by
  simp [Ideal.ofBits, Ideal.ieee]

/-- A row maximum taken by the vector unit is the specification's row maximum. -/
theorem rowmax_eq (h : FVec Ideal S400x16 .f32) (hr : S400x16.Reduces [1] S400) (hφ : FKind.Formats .f32)
    (hacc : (0xFF800000#32 : BitVec 32) = 0xFF800000#32) (p : Fin 400) :
    multiReduction .maximumf [1] S400 h 0xFF800000#32 hr hφ hacc (ix1 p) = rowMax (M := 400) (D := 16) h p := by
  refine (Ideal.multiReduction_maximumf_single h 0xFF800000#32 hr hφ hacc (ix1 p)).trans ?_
  unfold rowMax
  rw [show (FloatOps.ofBits (F := Ideal) .f32 0xFF800000#32) = (⊥ : EReal) from neg_inf_pat]
  refine congrArg (fun f => Finset.fold max ⊥ f Finset.univ) (funext fun k => ?_)
  exact congrArg h (funext fun a => Fin.ext (by match a with | ⟨0, _⟩ => rfl | ⟨1, _⟩ => rfl))

/-- A row sum taken by the vector unit is the finite sum over the row. -/
theorem rowsum_eq (e : FVec Ideal S400x16 .f32) (hr : S400x16.Reduces [1] S400) (hφ : FKind.Formats .f32)
    (hacc : (0x00000000#32 : BitVec 32) = 0x00000000#32) (p : Fin 400) :
    multiReduction .add [1] S400 e 0x00000000#32 hr hφ hacc (ix1 p) = ∑ k : Fin 16, e (ix2 p k) := by
  refine (Ideal.multiReduction_add_single e 0x00000000#32 hr hφ hacc (ix1 p)).trans ?_
  refine Finset.sum_congr rfl fun k _ => ?_
  exact congrArg e (funext fun a => Fin.ext (by match a with | ⟨0, _⟩ => rfl | ⟨1, _⟩ => rfl))

/-- The pre-activation of the last layer on 400 rows, as the vector unit forms it. -/
theorem pre3_eq (x0 : Vec Ideal S400x10000 .bf16) (x1 : Vec Ideal S10000x16 .bf16) (x2 : Vec Ideal S1x16 .f32) :
    (addf (matmul (φ₁ := .bf16) (φ₂ := .bf16) dot_S400x10000_S10000x16_S400x16_1_0_0_1_n_n none x0 x1 (constant (F := Ideal) S400x16 .f32 0x00000000#32))
      (broadcastTo S400x16 x2 broadcasts_S1x16_S400x16) : FVec Ideal S400x16 .f32)
      = pre (M := 400) (K := 10000) (D := 16) x0 x1 x2 := by
  funext j
  obtain ⟨p, q, rfl⟩ : ∃ (p : Fin 400) (q : Fin 16), j = ix2 p q := ⟨j 0, j 1, eq_ix2 j⟩
  show FloatOps.matmul (F := Ideal) (φ₁ := .bf16) (φ₂ := .bf16) dot_S400x10000_S10000x16_S400x16_1_0_0_1_n_n none _ _ (constant (F := Ideal) S400x16 .f32 0x00000000#32) (ix2 p q)
      + broadcastTo S400x16 x2 broadcasts_S1x16_S400x16 (ix2 p q) = _
  rw [RowsByCols.matmul_zero_apply ⟨rfl, rfl, rfl, rfl, rfl, rfl⟩, broadcastTo_1b_ab_apply]
  rfl

/-- Region 3's stored block: the log-softmax (the kernel's association) of the last pre-activation on 400 rows. -/
theorem pay3_at (x0 : Vec Ideal S400x10000 .bf16) (x1 : Vec Ideal S10000x16 .bf16) (x2 : Vec Ideal S1x16 .f32) (p : Fin 400) (q : Fin 16) :
    k3_pay1 x0 x1 x2 (ix2 p q) = lsmK (pre (M := 400) (K := 10000) (D := 16) x0 x1 x2) (ix2 p q) := by
  unfold k3_pay1
  simp only [shapeCast_self]
  rw [pre3_eq]
  generalize pre (M := 400) (K := 10000) (D := 16) x0 x1 x2 = h
  show h (ix2 p q) - broadcastTo S400x16 _ broadcasts_S400x1_S400x16 (ix2 p q) = _
  rw [LibKeepdims.broadcastTo_a1_ab_apply]
  show h (ix2 p q) - (Ideal.log (shapeCast S400x1 _ shapeCasts_S400_S400x1 (ix2 p (0 : Fin 1))) + shapeCast S400x1 _ shapeCasts_S400_S400x1 (ix2 p (0 : Fin 1))) = _
  rw [LibKeepdims.shapeCast_a_a1_apply, LibKeepdims.shapeCast_a_a1_apply, rowsum_eq, rowmax_eq]
  unfold lsmK rowLse
  refine congrArg (fun z => h (ix2 p q) - (Ideal.log z + rowMax h p)) (Finset.sum_congr rfl fun k _ => ?_)
  show Ideal.exp (h (ix2 p k) - broadcastTo S400x16 (shapeCast S400x1 _ shapeCasts_S400_S400x1) broadcasts_S400x1_S400x16 (ix2 p k)) = _
  rw [LibKeepdims.broadcastTo_shapeCast_column_apply, rowmax_eq]

theorem pay3 (x0 : Vec Ideal S400x10000 .bf16) (x1 : Vec Ideal S10000x16 .bf16) (x2 : Vec Ideal S1x16 .f32) :
    k3_pay1 x0 x1 x2 = lsmK (pre (M := 400) (K := 10000) (D := 16) x0 x1 x2) := by
  funext j
  obtain ⟨p, q, rfl⟩ : ∃ (p : Fin 400) (q : Fin 16), j = ix2 p q := ⟨j 0, j 1, eq_ix2 j⟩
  exact pay3_at x0 x1 x2 p q

end Cert.KernelIdeal.Pay

end
-- ==== Proof.Region0.lean ====
/-
  The first pallas_call (the support x · W1), read as values.

  It has no grid: its one point stages the whole of x and of W1 and writes back the whole product.
-/
import proofs.«177736_g29712583753982_cont_8to1_b_47_6_alg».proof.Proof.Gen.KernelIdeal.Frame
import proofs.«177736_g29712583753982_cont_8to1_b_47_6_alg».proof.Proof.Spec
import proofs.«177736_g29712583753982_cont_8to1_b_47_6_alg».proof.Proof.LibRowsByCols
import proofs.«177736_g29712583753982_cont_8to1_b_47_6_alg».proof.Proof.LibKeepdims
import proofs.«177736_g29712583753982_cont_8to1_b_47_6_alg».proof.Proof.Payloads
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn Cert.Lib

variable (V : (c : Dev nD) → (b : Ref sig .tc) → Buf (Elt Ideal) ((c : Thread nD τ).loc b))

theorem hz : (![0, 0] : Fin 2 → Nat) = fun _ => 0 := funext fun a => by fin_cases a <;> rfl

/-- Every window's block index is 0 at the one point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The arrays region 0 finds, and its blocks, at their literal types. -/
abbrev xA (c : Dev nD) : Vec Ideal S10000x128 .f32 := V c main_arg0
abbrev wA (c : Dev nD) : Vec Ideal S128x64 .bf16 := V c main_call0_v0
abbrev xB (c : Dev nD) (t : Fin cfg0.N) : Vec Ideal S10000x128 .f32 := iblk0 V c 0 t
abbrev wB (c : Dev nD) (t : Fin cfg0.N) : Vec Ideal S128x64 .bf16 := iblk0 V c 1 t

theorem xB_eq (c : Dev nD) (t : Fin cfg0.N) : xB V c t = xA V c := by
  obtain ⟨e0, e1, -⟩ := idx_facts t
  funext y
  show V c main_arg0 (((cfg0.win 0).blk t).view.emb y) = V c main_arg0 y
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem wB_eq (c : Dev nD) (t : Fin cfg0.N) : wB V c t = wA V c := by
  obtain ⟨-, -, e2, e3, -⟩ := idx_facts t
  funext y
  show V c main_call0_v0 (((cfg0.win 1).blk t).view.emb y) = V c main_call0_v0 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The output block's index is the array's index. -/
theorem emb2 (t : Fin cfg0.N) (j : S10000x64.Idx) : ((cfg0.win 2).blk t).view.emb j = j := by
  obtain ⟨-, -, -, -, e4, e5⟩ := idx_facts t
  funext a; apply Fin.ext
  match a with
  | ⟨0, _⟩ => show win0_2.index t (0 : Fin 2) * 10000 + 1 * (j 0).val = (j 0).val; omega
  | ⟨1, _⟩ => show win0_2.index t (1 : Fin 2) * 64 + 1 * (j 1).val = (j 1).val; omega

/-- WHAT THE POINT WRITES BACK: the whole product. -/
theorem flushed2_eq (c : Dev nD) (t : Fin cfg0.N) :
    (dat0 V c).flushed 2 t = ((cfg0.win 2).blk t).view.read (Elt Ideal)
      (mm (M := 10000) (K := 128) (N := 64) (xA V c) (wA V c)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  rw [Pay.pay0]
  funext j
  show mm (xB V c t) (wB V c t) j = mm (xA V c) (wA V c) (((cfg0.win 2).blk t).view.emb j)
  rw [emb2, xB_eq, wB_eq]

theorem mem_blk2 (t : Fin cfg0.N) (i : S10000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_call0_v3).slice (win0_2.rect t)).set ↔ _
  rw [View.set_slice_whole, Rect.mem_set_unit]
  exact Iff.rfl

/-- The one block is the whole array. -/
theorem cover2 (i : S10000x64.Idx) : ∃ t : Fin cfg0.N, (cfg0.win 2).flush t = true ∧ i ∈ ((cfg0.win 2).blk t).view.set := by
  have hi0 : (i 0).val < 10000 := (i 0).isLt
  have hi1 : (i 1).val < 64 := (i 1).isLt
  let t : Fin cfg0.N := ⟨0, by decide⟩
  obtain ⟨-, -, -, -, e4, e5⟩ := idx_facts t
  refine ⟨t, flush0_2 t, ?_⟩
  rw [mem_blk2]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE SUPPORT after the region: x · W1. -/
theorem final2 (c : Dev nD) : (dat0 V c).arrAt 2 cfg0.N = mm (M := 10000) (K := 128) (N := 64) (xA V c) (wA V c) :=
  (dat0 V c).arrAt_eq_of_cover 2 _ (fun t _ => flushed2_eq V c t) cover2

end Cert.KernelIdeal.R0

end
-- ==== Proof.Region1.lean ====
/-
  The second pallas_call (the first graph-convolution layer), read as values.

  Its grid has 50 points; point t stages rows 200 t … 200 t + 199 of the adjacency, the whole support x · W1, the bias
  row and the weight matrix, and writes back 200 rows of the next support and of the adjacency copy.  A layer's row
  depends on the operator only through that row, so what point t writes back is block t of the layer taken on the whole
  adjacency; the 50 blocks cover the 10000 rows, so the next support ends as that layer and the copy as the adjacency.
-/
import proofs.«177736_g29712583753982_cont_8to1_b_47_6_alg».proof.Proof.Gen.KernelIdeal.Frame
import proofs.«177736_g29712583753982_cont_8to1_b_47_6_alg».proof.Proof.Spec
import proofs.«177736_g29712583753982_cont_8to1_b_47_6_alg».proof.Proof.LibRowsByCols
import proofs.«177736_g29712583753982_cont_8to1_b_47_6_alg».proof.Proof.LibKeepdims
import proofs.«177736_g29712583753982_cont_8to1_b_47_6_alg».proof.Proof.Payloads
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn Cert.Lib

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 50 grid points: the adjacency rows and both outputs move with the point, the
    support, the bias row and the weights stay at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The arrays region 1 finds, at their literal types. -/
abbrev adjA (c : Dev nD) : Vec Ideal S10000x10000 .f32 := V c main_arg1
abbrev supA (c : Dev nD) : Vec Ideal S10000x64 .bf16 := V c main_call0_v3
abbrev biasA (c : Dev nD) : Vec Ideal S1x64 .f32 := V c main_call0_v4
abbrev wgtA (c : Dev nD) : Vec Ideal S64x64 .bf16 := V c main_call0_v1
/-- The blocks at a point, at their literal types. -/
abbrev adjB (c : Dev nD) (t : Fin cfg1.N) : Vec Ideal S200x10000 .f32 := iblk1 V c 0 t
abbrev supB (c : Dev nD) (t : Fin cfg1.N) : Vec Ideal S10000x64 .bf16 := iblk1 V c 1 t
abbrev biasB (c : Dev nD) (t : Fin cfg1.N) : Vec Ideal S1x64 .f32 := iblk1 V c 2 t
abbrev wgtB (c : Dev nD) (t : Fin cfg1.N) : Vec Ideal S64x64 .bf16 := iblk1 V c 3 t

/-! The support, bias and weight blocks are the whole arrays. -/

theorem supB_eq (c : Dev nD) (t : Fin cfg1.N) : supB V c t = supA V c := by
  obtain ⟨-, -, e2, e3, e4, e5, e6, e7, -⟩ := idx_facts t
  funext y
  show V c main_call0_v3 (((cfg1.win 1).blk t).view.emb y) = V c main_call0_v3 y
  refine congrArg _ (funext fun a => Fin.ext ?_)
  match a with
  | ⟨0, _⟩ => show win1_1.index t (0 : Fin 2) * 10000 + 1 * (y 0).val = (y 0).val; omega
  | ⟨1, _⟩ => show win1_1.index t (1 : Fin 2) * 64 + 1 * (y 1).val = (y 1).val; omega

theorem biasB_eq (c : Dev nD) (t : Fin cfg1.N) : biasB V c t = biasA V c := by
  obtain ⟨-, -, e2, e3, e4, e5, e6, e7, -⟩ := idx_facts t
  funext y
  show V c main_call0_v4 (((cfg1.win 2).blk t).view.emb y) = V c main_call0_v4 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

theorem wgtB_eq (c : Dev nD) (t : Fin cfg1.N) : wgtB V c t = wgtA V c := by
  obtain ⟨-, -, e2, e3, e4, e5, e6, e7, -⟩ := idx_facts t
  funext y
  show V c main_call0_v1 (((cfg1.win 3).blk t).view.emb y) = V c main_call0_v1 y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- Row p of the adjacency block at point t is row 200 t + p of the adjacency. -/
theorem adjB_row (c : Dev nD) (t : Fin cfg1.N) (p : Fin 200) (hp : t.val * 200 + p.val < 10000) (k : Fin 10000) :
    adjB V c t (ix2 p k) = adjA V c (ix2 (⟨t.val * 200 + p.val, hp⟩ : Fin 10000) k) := by
  obtain ⟨e0, e1, -⟩ := idx_facts t
  show V c main_arg1 (((cfg1.win 0).blk t).view.emb (ix2 p k)) = V c main_arg1 _
  refine congrArg _ (funext fun a => Fin.ext ?_)
  match a with
  | ⟨0, _⟩ => show win1_0.index t (0 : Fin 2) * 200 + 1 * p.val = t.val * 200 + p.val; omega
  | ⟨1, _⟩ => show win1_0.index t (1 : Fin 2) * 10000 + 1 * k.val = k.val; omega

/-- The array index under the block index (p, q) of output window 4 at point t. -/
theorem emb4 (t : Fin cfg1.N) (p : Fin 200) (q : Fin 64) (hp : t.val * 200 + p.val < 10000) :
    ((cfg1.win 4).blk t).view.emb (ix2 p q) = ix2 (⟨t.val * 200 + p.val, hp⟩ : Fin 10000) q := by
  obtain ⟨-, -, -, -, -, -, -, -, e8, e9, -⟩ := idx_facts t
  funext a; apply Fin.ext
  match a with
  | ⟨0, _⟩ => show win1_4.index t (0 : Fin 2) * 200 + 1 * p.val = t.val * 200 + p.val; omega
  | ⟨1, _⟩ => show win1_4.index t (1 : Fin 2) * 64 + 1 * q.val = q.val; omega

/-- The array index under the block index (p, k) of output window 5 at point t. -/
theorem emb5 (t : Fin cfg1.N) (p : Fin 200) (k : Fin 10000) (hp : t.val * 200 + p.val < 10000) :
    ((cfg1.win 5).blk t).view.emb (ix2 p k) = ix2 (⟨t.val * 200 + p.val, hp⟩ : Fin 10000) k := by
  obtain ⟨-, -, -, -, -, -, -, -, -, -, e10, e11⟩ := idx_facts t
  funext a; apply Fin.ext
  match a with
  | ⟨0, _⟩ => show win1_5.index t (0 : Fin 2) * 200 + 1 * p.val = t.val * 200 + p.val; omega
  | ⟨1, _⟩ => show win1_5.index t (1 : Fin 2) * 10000 + 1 * k.val = k.val; omega

theorem row_lt (t : Fin cfg1.N) (p : Fin 200) : t.val * 200 + p.val < 10000 := by
  have ht : t.val < 50 := t.isLt
  have := p.isLt; omega

/-- WHAT POINT t WRITES BACK to the next support: block t of the layer on the whole adjacency. -/
theorem flushed4_eq (c : Dev nD) (t : Fin cfg1.N) :
    (dat1 V c).flushed 4 t = ((cfg1.win 4).blk t).view.read (Elt Ideal)
      (layer (M := 10000) (K := 10000) (D := 64) (E := 64) (adjA V c) (supA V c) (biasA V c) (wgtA V c)) := by
  show (cfg1.win 4).cut (grid1.coords t) ((dat1 V c).after 4 t) = _
  rw [after1_4]
  unfold out1_4
  rw [View.canon_unit_zero hz]
  simp only [View.ld_unit_zero (S := S200x10000) hz, View.ld_unit_zero (S := S10000x64) hz, View.ld_unit_zero (S := S1x64) hz,
    View.ld_unit_zero (S := S64x64) hz]
  rw [Pay.pay1]
  funext j
  obtain ⟨p, q, rfl⟩ : ∃ (p : Fin 200) (q : Fin 64), j = ix2 p q := ⟨j 0, j 1, eq_ix2 j⟩
  show layer (adjB V c t) (supB V c t) (biasB V c t) (wgtB V c t) (ix2 p q)
    = layer (adjA V c) (supA V c) (biasA V c) (wgtA V c) (((cfg1.win 4).blk t).view.emb (ix2 p q))
  rw [emb4 t p q (row_lt t p), supB_eq, biasB_eq, wgtB_eq]
  exact layer_row _ _ _ _ _ p _ (fun k => adjB_row V c t p (row_lt t p) k) q

/-- WHAT POINT t WRITES BACK to the adjacency copy: block t of the adjacency. -/
theorem flushed5_eq (c : Dev nD) (t : Fin cfg1.N) :
    (dat1 V c).flushed 5 t = ((cfg1.win 5).blk t).view.read (Elt Ideal) (adjA V c) := by
  show (cfg1.win 5).cut (grid1.coords t) ((dat1 V c).after 5 t) = _
  rw [after1_5]
  unfold out1_5
  rw [View.canon_unit_zero hz]
  simp only [View.ld_unit_zero (S := S200x10000) hz]
  rw [Pay.pay1_copy]
  funext j
  obtain ⟨p, k, rfl⟩ : ∃ (p : Fin 200) (k : Fin 10000), j = ix2 p k := ⟨j 0, j 1, eq_ix2 j⟩
  show adjB V c t (ix2 p k) = adjA V c (((cfg1.win 5).blk t).view.emb (ix2 p k))
  rw [emb5 t p k (row_lt t p)]
  exact adjB_row V c t p (row_lt t p) k

/-- An index of the next support's array is in point t's block iff its row is among the point's 200 rows. -/
theorem mem_blk4 (t : Fin cfg1.N) (i : S10000x64.Idx) :
    i ∈ ((cfg1.win 4).blk t).view.set ↔ ∀ a : Fin 2, win1_4.index t a * S200x64.size a ≤ (i a).val ∧ (i a).val < win1_4.index t a * S200x64.size a + S200x64.size a := by
  show i ∈ ((View.whole main_call0_v7_0).slice (win1_4.rect t)).set ↔ _
  rw [View.set_slice_whole, Rect.mem_set_unit]
  exact Iff.rfl

theorem mem_blk5 (t : Fin cfg1.N) (i : S10000x10000.Idx) :
    i ∈ ((cfg1.win 5).blk t).view.set ↔ ∀ a : Fin 2, win1_5.index t a * S200x10000.size a ≤ (i a).val ∧ (i a).val < win1_5.index t a * S200x10000.size a + S200x10000.size a := by
  show i ∈ ((View.whole main_call0_v7_1).slice (win1_5.rect t)).set ↔ _
  rw [View.set_slice_whole, Rect.mem_set_unit]
  exact Iff.rfl

/-- Every row lies in the block of the point row / 200. -/
theorem cover4 (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  let t : Fin cfg1.N := ⟨(i 0).val / 200, by show (i 0).val / 200 < 50; omega⟩
  obtain ⟨-, -, -, -, -, -, -, -, e8, e9, -⟩ := idx_facts t
  have ht : t.val = (i 0).val / 200 := rfl
  refine ⟨t, flush1_4 t, ?_⟩
  rw [mem_blk4]
  intro a
  match a with
  | ⟨0, _⟩ => show win1_4.index t (0 : Fin 2) * 200 ≤ (i 0).val ∧ (i 0).val < win1_4.index t (0 : Fin 2) * 200 + 200; omega
  | ⟨1, _⟩ => show win1_4.index t (1 : Fin 2) * 64 ≤ (i 1).val ∧ (i 1).val < win1_4.index t (1 : Fin 2) * 64 + 64; omega

theorem cover5 (i : S10000x10000.Idx) : ∃ t : Fin cfg1.N, (cfg1.win 5).flush t = true ∧ i ∈ ((cfg1.win 5).blk t).view.set := by
  have hi0 : (i 0).val < 10000 := (i 0).isLt
  have hi1 : (i 1).val < 10000 := (i 1).isLt
  let t : Fin cfg1.N := ⟨(i 0).val / 200, by show (i 0).val / 200 < 50; omega⟩
  obtain ⟨-, -, -, -, -, -, -, -, -, -, e10, e11⟩ := idx_facts t
  have ht : t.val = (i 0).val / 200 := rfl
  refine ⟨t, flush1_5 t, ?_⟩
  rw [mem_blk5]
  intro a
  match a with
  | ⟨0, _⟩ => show win1_5.index t (0 : Fin 2) * 200 ≤ (i 0).val ∧ (i 0).val < win1_5.index t (0 : Fin 2) * 200 + 200; omega
  | ⟨1, _⟩ => show win1_5.index t (1 : Fin 2) * 10000 ≤ (i 1).val ∧ (i 1).val < win1_5.index t (1 : Fin 2) * 10000 + 10000; omega

/-- THE NEXT SUPPORT after the region: the layer on the whole adjacency. -/
theorem final4 (c : Dev nD) : (dat1 V c).arrAt 4 cfg1.N
    = layer (M := 10000) (K := 10000) (D := 64) (E := 64) (adjA V c) (supA V c) (biasA V c) (wgtA V c) :=
  (dat1 V c).arrAt_eq_of_cover 4 _ (fun t _ => flushed4_eq V c t) cover4

/-- THE ADJACENCY COPY after the region: the adjacency. -/
theorem final5 (c : Dev nD) : (dat1 V c).arrAt 5 cfg1.N = adjA V c :=
  (dat1 V c).arrAt_eq_of_cover 5 _ (fun t _ => flushed5_eq V c t) cover5

end Cert.KernelIdeal.R1

end
-- ==== Proof.Region2.lean ====
/-
  The third pallas_call (the second graph-convolution layer), read as values.

  Its grid has 25 points; point t stages rows 400 t … 400 t + 399 of the adjacency copy, the whole support, the bias
  row and the weight matrix, and writes back 400 rows of the next support.  What point t writes back is block t of the
  layer taken on the whole operator; the 25 blocks cover the 10000 rows.
-/
import proofs.«177736_g29712583753982_cont_8to1_b_47_6_alg».proof.Proof.Gen.KernelIdeal.Frame
import proofs.«177736_g29712583753982_cont_8to1_b_47_6_alg».proof.Proof.Spec
import proofs.«177736_g29712583753982_cont_8to1_b_47_6_alg».proof.Proof.LibRowsByCols
import proofs.«177736_g29712583753982_cont_8to1_b_47_6_alg».proof.Proof.LibKeepdims
import proofs.«177736_g29712583753982_cont_8to1_b_47_6_alg».proof.Proof.Payloads
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R2

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn Cert.Lib

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the operator's rows and the output move with the point, the
    support, the bias row and the weights stay at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The arrays region 2 finds, at their literal types. -/
abbrev opA (c : Dev nD) : Vec Ideal S10000x10000 .bf16 := V c main_call0_v7_1
abbrev supA (c : Dev nD) : Vec Ideal S10000x64 .bf16 := V c main_call0_v7_0
abbrev biasA (c : Dev nD) : Vec Ideal S1x64 .f32 := V c main_call0_v5
abbrev wgtA (c : Dev nD) : Vec Ideal S64x16 .bf16 := V c main_call0_v2
/-- The blocks at a point, at their literal types. -/
abbrev opB (c : Dev nD) (t : Fin cfg2.N) : Vec Ideal S400x10000 .bf16 := iblk2 V c 0 t
abbrev supB (c : Dev nD) (t : Fin cfg2.N) : Vec Ideal S10000x64 .bf16 := iblk2 V c 1 t
abbrev biasB (c : Dev nD) (t : Fin cfg2.N) : Vec Ideal S1x64 .f32 := iblk2 V c 2 t
abbrev wgtB (c : Dev nD) (t : Fin cfg2.N) : Vec Ideal S64x16 .bf16 := iblk2 V c 3 t

/-! The support, bias and weight blocks are the whole arrays. -/

theorem supB_eq (c : Dev nD) (t : Fin cfg2.N) : supB V c t = supA V c := by
  obtain ⟨-, -, e2, e3, -⟩ := idx_facts t
  funext y
  show V c main_call0_v7_0 (((cfg2.win 1).blk t).view.emb y) = V c main_call0_v7_0 y
  refine congrArg _ (funext fun a => Fin.ext ?_)
  match a with
  | ⟨0, _⟩ => show win2_1.index t (0 : Fin 2) * 10000 + 1 * (y 0).val = (y 0).val; omega
  | ⟨1, _⟩ => show win2_1.index t (1 : Fin 2) * 64 + 1 * (y 1).val = (y 1).val; omega

theorem biasB_eq (c : Dev nD) (t : Fin cfg2.N) : biasB V c t = biasA V c := by
  obtain ⟨-, -, -, -, e4, e5, -⟩ := idx_facts t
  funext y
  show V c main_call0_v5 (((cfg2.win 2).blk t).view.emb y) = V c main_call0_v5 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega

theorem wgtB_eq (c : Dev nD) (t : Fin cfg2.N) : wgtB V c t = wgtA V c := by
  obtain ⟨-, -, -, -, -, -, e6, e7, -⟩ := idx_facts t
  funext y
  show V c main_call0_v2 (((cfg2.win 3).blk t).view.emb y) = V c main_call0_v2 y
  refine congrArg _ (funext fun a => Fin.ext ?_)
  match a with
  | ⟨0, _⟩ => show win2_3.index t (0 : Fin 2) * 64 + 1 * (y 0).val = (y 0).val; omega
  | ⟨1, _⟩ => show win2_3.index t (1 : Fin 2) * 16 + 1 * (y 1).val = (y 1).val; omega

theorem row_lt (t : Fin cfg2.N) (p : Fin 400) : t.val * 400 + p.val < 10000 := by
  have ht : t.val < 25 := t.isLt
  have := p.isLt; omega

/-- Row p of the operator's block at point t is row 400 t + p of the operator. -/
theorem opB_row (c : Dev nD) (t : Fin cfg2.N) (p : Fin 400) (hp : t.val * 400 + p.val < 10000) (k : Fin 10000) :
    opB V c t (ix2 p k) = opA V c (ix2 (⟨t.val * 400 + p.val, hp⟩ : Fin 10000) k) := by
  obtain ⟨e0, e1, -⟩ := idx_facts t
  show V c main_call0_v7_1 (((cfg2.win 0).blk t).view.emb (ix2 p k)) = V c main_call0_v7_1 _
  refine congrArg _ (funext fun a => Fin.ext ?_)
  match a with
  | ⟨0, _⟩ => show win2_0.index t (0 : Fin 2) * 400 + 1 * p.val = t.val * 400 + p.val; omega
  | ⟨1, _⟩ => show win2_0.index t (1 : Fin 2) * 10000 + 1 * k.val = k.val; omega

/-- The array index under the block index (p, q) of the output window at point t. -/
theorem emb4 (t : Fin cfg2.N) (p : Fin 400) (q : Fin 16) (hp : t.val * 400 + p.val < 10000) :
    ((cfg2.win 4).blk t).view.emb (ix2 p q) = ix2 (⟨t.val * 400 + p.val, hp⟩ : Fin 10000) q := by
  obtain ⟨-, -, -, -, -, -, -, -, e8, e9⟩ := idx_facts t
  funext a; apply Fin.ext
  match a with
  | ⟨0, _⟩ => show win2_4.index t (0 : Fin 2) * 400 + 1 * p.val = t.val * 400 + p.val; omega
  | ⟨1, _⟩ => show win2_4.index t (1 : Fin 2) * 16 + 1 * q.val = q.val; omega

/-- WHAT POINT t WRITES BACK to the next support: block t of the layer on the whole operator. -/
theorem flushed4_eq (c : Dev nD) (t : Fin cfg2.N) :
    (dat2 V c).flushed 4 t = ((cfg2.win 4).blk t).view.read (Elt Ideal)
      (layer (M := 10000) (K := 10000) (D := 64) (E := 16) (opA V c) (supA V c) (biasA V c) (wgtA V c)) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x64) hz, View.ld_unit_zero (S := S1x64) hz,
    View.ld_unit_zero (S := S64x16) hz]
  rw [Pay.pay2]
  funext j
  obtain ⟨p, q, rfl⟩ : ∃ (p : Fin 400) (q : Fin 16), j = ix2 p q := ⟨j 0, j 1, eq_ix2 j⟩
  show layer (opB V c t) (supB V c t) (biasB V c t) (wgtB V c t) (ix2 p q)
    = layer (opA V c) (supA V c) (biasA V c) (wgtA V c) (((cfg2.win 4).blk t).view.emb (ix2 p q))
  rw [emb4 t p q (row_lt t p), supB_eq, biasB_eq, wgtB_eq]
  exact layer_row _ _ _ _ _ p _ (fun k => opB_row V c t p (row_lt t p) k) q

/-- An index of the output array is in point t's block iff its row is among the point's 400 rows. -/
theorem mem_blk4 (t : Fin cfg2.N) (i : S10000x16.Idx) :
    i ∈ ((cfg2.win 4).blk t).view.set ↔ ∀ a : Fin 2, win2_4.index t a * S400x16.size a ≤ (i a).val ∧ (i a).val < win2_4.index t a * S400x16.size a + S400x16.size a := by
  show i ∈ ((View.whole main_call0_v8).slice (win2_4.rect t)).set ↔ _
  rw [View.set_slice_whole, Rect.mem_set_unit]
  exact Iff.rfl

/-- Every row lies in the block of the point row / 400. -/
theorem cover4 (i : S10000x16.Idx) : ∃ t : Fin cfg2.N, (cfg2.win 4).flush t = true ∧ i ∈ ((cfg2.win 4).blk t).view.set := by
  have hi0 : (i 0).val < 10000 := (i 0).isLt
  have hi1 : (i 1).val < 16 := (i 1).isLt
  let t : Fin cfg2.N := ⟨(i 0).val / 400, by show (i 0).val / 400 < 25; omega⟩
  obtain ⟨-, -, -, -, -, -, -, -, e8, e9⟩ := idx_facts t
  have ht : t.val = (i 0).val / 400 := rfl
  refine ⟨t, flush2_4 t, ?_⟩
  rw [mem_blk4]
  intro a
  match a with
  | ⟨0, _⟩ => show win2_4.index t (0 : Fin 2) * 400 ≤ (i 0).val ∧ (i 0).val < win2_4.index t (0 : Fin 2) * 400 + 400; omega
  | ⟨1, _⟩ => show win2_4.index t (1 : Fin 2) * 16 ≤ (i 1).val ∧ (i 1).val < win2_4.index t (1 : Fin 2) * 16 + 16; omega

/-- THE NEXT SUPPORT after the region: the layer on the whole operator. -/
theorem final4 (c : Dev nD) : (dat2 V c).arrAt 4 cfg2.N
    = layer (M := 10000) (K := 10000) (D := 64) (E := 16) (opA V c) (supA V c) (biasA V c) (wgtA V c) :=
  (dat2 V c).arrAt_eq_of_cover 4 _ (fun t _ => flushed4_eq V c t) cover4

end Cert.KernelIdeal.R2

end
-- ==== Proof.Region3.lean ====
/-
  The fourth pallas_call (the last graph-convolution layer and the log-softmax), read as values.

  Its grid has 25 points; point t stages rows 400 t … 400 t + 399 of the adjacency copy, the whole support and the bias
  row, and writes back 400 rows of the result.  The pre-activation's row, its maximum and its log-sum-exp all depend on
  the operator only through that row, so what point t writes back is block t of the log-softmax of the pre-activation
  taken on the whole operator; the 25 blocks cover the 10000 rows.
-/
import proofs.«177736_g29712583753982_cont_8to1_b_47_6_alg».proof.Proof.Gen.KernelIdeal.Frame
import proofs.«177736_g29712583753982_cont_8to1_b_47_6_alg».proof.Proof.Spec
import proofs.«177736_g29712583753982_cont_8to1_b_47_6_alg».proof.Proof.LibRowsByCols
import proofs.«177736_g29712583753982_cont_8to1_b_47_6_alg».proof.Proof.LibKeepdims
import proofs.«177736_g29712583753982_cont_8to1_b_47_6_alg».proof.Proof.Payloads
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R3

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn Cert.Lib

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the operator's rows and the output move with the point, the
    support and the bias row stay at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The arrays region 3 finds, at their literal types. -/
abbrev opA (c : Dev nD) : Vec Ideal S10000x10000 .bf16 := V c main_call0_v7_1
abbrev supA (c : Dev nD) : Vec Ideal S10000x16 .bf16 := V c main_call0_v8
abbrev biasA (c : Dev nD) : Vec Ideal S1x16 .f32 := V c main_call0_v6
/-- The blocks at a point, at their literal types. -/
abbrev opB (c : Dev nD) (t : Fin cfg3.N) : Vec Ideal S400x10000 .bf16 := iblk3 V c 0 t
abbrev supB (c : Dev nD) (t : Fin cfg3.N) : Vec Ideal S10000x16 .bf16 := iblk3 V c 1 t
abbrev biasB (c : Dev nD) (t : Fin cfg3.N) : Vec Ideal S1x16 .f32 := iblk3 V c 2 t

/-! The support and bias blocks are the whole arrays. -/

theorem supB_eq (c : Dev nD) (t : Fin cfg3.N) : supB V c t = supA V c := by
  obtain ⟨-, -, e2, e3, -⟩ := idx_facts t
  funext y
  show V c main_call0_v8 (((cfg3.win 1).blk t).view.emb y) = V c main_call0_v8 y
  refine congrArg _ (funext fun a => Fin.ext ?_)
  match a with
  | ⟨0, _⟩ => show win3_1.index t (0 : Fin 2) * 10000 + 1 * (y 0).val = (y 0).val; omega
  | ⟨1, _⟩ => show win3_1.index t (1 : Fin 2) * 16 + 1 * (y 1).val = (y 1).val; omega

theorem biasB_eq (c : Dev nD) (t : Fin cfg3.N) : biasB V c t = biasA V c := by
  obtain ⟨-, -, -, -, e4, e5, -⟩ := idx_facts t
  funext y
  show V c main_call0_v6 (((cfg3.win 2).blk t).view.emb y) = V c main_call0_v6 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 16 + 1 * (y 1).val = (y 1).val; omega

theorem row_lt (t : Fin cfg3.N) (p : Fin 400) : t.val * 400 + p.val < 10000 := by
  have ht : t.val < 25 := t.isLt
  have := p.isLt; omega

/-- Row p of the operator's block at point t is row 400 t + p of the operator. -/
theorem opB_row (c : Dev nD) (t : Fin cfg3.N) (p : Fin 400) (hp : t.val * 400 + p.val < 10000) (k : Fin 10000) :
    opB V c t (ix2 p k) = opA V c (ix2 (⟨t.val * 400 + p.val, hp⟩ : Fin 10000) k) := by
  obtain ⟨e0, e1, -⟩ := idx_facts t
  show V c main_call0_v7_1 (((cfg3.win 0).blk t).view.emb (ix2 p k)) = V c main_call0_v7_1 _
  refine congrArg _ (funext fun a => Fin.ext ?_)
  match a with
  | ⟨0, _⟩ => show win3_0.index t (0 : Fin 2) * 400 + 1 * p.val = t.val * 400 + p.val; omega
  | ⟨1, _⟩ => show win3_0.index t (1 : Fin 2) * 10000 + 1 * k.val = k.val; omega

/-- The array index under the block index (p, q) of the output window at point t. -/
theorem emb3 (t : Fin cfg3.N) (p : Fin 400) (q : Fin 16) (hp : t.val * 400 + p.val < 10000) :
    ((cfg3.win 3).blk t).view.emb (ix2 p q) = ix2 (⟨t.val * 400 + p.val, hp⟩ : Fin 10000) q := by
  obtain ⟨-, -, -, -, -, -, e6, e7⟩ := idx_facts t
  funext a; apply Fin.ext
  match a with
  | ⟨0, _⟩ => show win3_3.index t (0 : Fin 2) * 400 + 1 * p.val = t.val * 400 + p.val; omega
  | ⟨1, _⟩ => show win3_3.index t (1 : Fin 2) * 16 + 1 * q.val = q.val; omega

/-- WHAT POINT t WRITES BACK to the result: block t of the log-softmax of the pre-activation on the whole operator. -/
theorem flushed3_eq (c : Dev nD) (t : Fin cfg3.N) :
    (dat3 V c).flushed 3 t = ((cfg3.win 3).blk t).view.read (Elt Ideal)
      (lsmK (pre (M := 10000) (K := 10000) (D := 16) (opA V c) (supA V c) (biasA V c))) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x16) hz, View.ld_unit_zero (S := S1x16) hz]
  rw [Pay.pay3]
  funext j
  obtain ⟨p, q, rfl⟩ : ∃ (p : Fin 400) (q : Fin 16), j = ix2 p q := ⟨j 0, j 1, eq_ix2 j⟩
  show lsmK (pre (opB V c t) (supB V c t) (biasB V c t)) (ix2 p q)
    = lsmK (pre (opA V c) (supA V c) (biasA V c)) (((cfg3.win 3).blk t).view.emb (ix2 p q))
  rw [emb3 t p q (row_lt t p), supB_eq, biasB_eq]
  exact lsmK_row _ _ p _ (fun k => pre_row _ _ _ _ p _ (fun k' => opB_row V c t p (row_lt t p) k') k) q

/-- An index of the result array is in point t's block iff its row is among the point's 400 rows. -/
theorem mem_blk3 (t : Fin cfg3.N) (i : S10000x16.Idx) :
    i ∈ ((cfg3.win 3).blk t).view.set ↔ ∀ a : Fin 2, win3_3.index t a * S400x16.size a ≤ (i a).val ∧ (i a).val < win3_3.index t a * S400x16.size a + S400x16.size a := by
  show i ∈ ((View.whole main_v0).slice (win3_3.rect t)).set ↔ _
  rw [View.set_slice_whole, Rect.mem_set_unit]
  exact Iff.rfl

/-- Every row lies in the block of the point row / 400. -/
theorem cover3 (i : S10000x16.Idx) : ∃ t : Fin cfg3.N, (cfg3.win 3).flush t = true ∧ i ∈ ((cfg3.win 3).blk t).view.set := by
  have hi0 : (i 0).val < 10000 := (i 0).isLt
  have hi1 : (i 1).val < 16 := (i 1).isLt
  let t : Fin cfg3.N := ⟨(i 0).val / 400, by show (i 0).val / 400 < 25; omega⟩
  obtain ⟨-, -, -, -, -, -, e6, e7⟩ := idx_facts t
  have ht : t.val = (i 0).val / 400 := rfl
  refine ⟨t, flush3_3 t, ?_⟩
  rw [mem_blk3]
  intro a
  match a with
  | ⟨0, _⟩ => show win3_3.index t (0 : Fin 2) * 400 ≤ (i 0).val ∧ (i 0).val < win3_3.index t (0 : Fin 2) * 400 + 400; omega
  | ⟨1, _⟩ => show win3_3.index t (1 : Fin 2) * 16 ≤ (i 1).val ∧ (i 1).val < win3_3.index t (1 : Fin 2) * 16 + 16; omega

/-- THE RESULT after the region: the log-softmax of the pre-activation on the whole operator. -/
theorem final3 (c : Dev nD) : (dat3 V c).arrAt 3 cfg3.N
    = lsmK (pre (M := 10000) (K := 10000) (D := 16) (opA V c) (supA V c) (biasA V c)) :=
  (dat3 V c).arrAt_eq_of_cover 3 _ (fun t _ => flushed3_eq V c t) cover3

end Cert.KernelIdeal.R3

end
-- ==== Proof.Chain.lean ====
/-
  The values at the boundaries between the host stretches and the four pallas_calls, walked from the launch memory to
  the result array.

  The host casts the three weight matrices (the identity on the extended reals); the first call leaves x · W1; the host
  recasts the three bias vectors as rows; the second call leaves the first layer times W2 and a copy of the adjacency;
  the third the second layer times W3; the fourth the log-softmax of the last pre-activation.  A buffer no operation or
  call writes keeps what it held, and a call's input array is left as it was found.
-/
import proofs.«177736_g29712583753982_cont_8to1_b_47_6_alg».proof.Proof.KernelRun
import proofs.«177736_g29712583753982_cont_8to1_b_47_6_alg».proof.Proof.Region0
import proofs.«177736_g29712583753982_cont_8to1_b_47_6_alg».proof.Proof.Region1
import proofs.«177736_g29712583753982_cont_8to1_b_47_6_alg».proof.Proof.Region2
import proofs.«177736_g29712583753982_cont_8to1_b_47_6_alg».proof.Proof.Region3
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (m : (ℓ : Loc nD τ sig) → Buf (Elt Ideal) ℓ) (ρ : Dev nD → PrngReg) (c : Dev nD)

/-- The eight argument arrays as launched, at their literal types. -/
abbrev aX : Vec Ideal S10000x128 .f32 := m ((c : Thread nD τ).loc main_arg0)
abbrev aAdj : Vec Ideal S10000x10000 .f32 := m ((c : Thread nD τ).loc main_arg1)
abbrev aW1 : Vec Ideal S128x64 .f32 := m ((c : Thread nD τ).loc main_arg2)
abbrev aB1 : Vec Ideal S64 .f32 := m ((c : Thread nD τ).loc main_arg3)
abbrev aW2 : Vec Ideal S64x64 .f32 := m ((c : Thread nD τ).loc main_arg4)
abbrev aB2 : Vec Ideal S64 .f32 := m ((c : Thread nD τ).loc main_arg5)
abbrev aW3 : Vec Ideal S64x16 .f32 := m ((c : Thread nD τ).loc main_arg6)
abbrev aB3 : Vec Ideal S16 .f32 := m ((c : Thread nD τ).loc main_arg7)

/-- The bias vector recast as a row by the host is the specification's row. -/
theorem reshape_row {D : Nat} (b : (⟨1, ![D]⟩ : Shape).Idx → EReal) (h : (⟨1, ![D]⟩ : Shape).ShapeCasts ⟨2, ![1, D]⟩) :
    shapeCast ⟨2, ![1, D]⟩ b h = rowOf b := by
  funext j
  obtain ⟨u, i, rfl⟩ : ∃ (u : Fin 1) (i : Fin D), j = ix2 u i := ⟨j 0, j 1, eq_ix2 j⟩
  exact shapeCast_a_1a_apply b h u i

/-! ## After the first host stretch (the weights cast) -/

theorem w1_x : (W1 m ρ c (Proc.devRef .tc main_arg0) : Vec Ideal S10000x128 .f32) = aX m c := by
  show StableHlo.after hostOps0 (W0 m ρ c) (Proc.devRef .tc main_arg0) = _
  after_results <;> rfl
theorem w1_adj : (W1 m ρ c (Proc.devRef .tc main_arg1) : Vec Ideal S10000x10000 .f32) = aAdj m c := by
  show StableHlo.after hostOps0 (W0 m ρ c) (Proc.devRef .tc main_arg1) = _
  after_results <;> rfl
theorem w1_b1 : (W1 m ρ c (Proc.devRef .tc main_arg3) : Vec Ideal S64 .f32) = aB1 m c := by
  show StableHlo.after hostOps0 (W0 m ρ c) (Proc.devRef .tc main_arg3) = _
  after_results <;> rfl
theorem w1_b2 : (W1 m ρ c (Proc.devRef .tc main_arg5) : Vec Ideal S64 .f32) = aB2 m c := by
  show StableHlo.after hostOps0 (W0 m ρ c) (Proc.devRef .tc main_arg5) = _
  after_results <;> rfl
theorem w1_b3 : (W1 m ρ c (Proc.devRef .tc main_arg7) : Vec Ideal S16 .f32) = aB3 m c := by
  show StableHlo.after hostOps0 (W0 m ρ c) (Proc.devRef .tc main_arg7) = _
  after_results <;> rfl
theorem w1_w1 : (W1 m ρ c (Proc.devRef .tc main_call0_v0) : Vec Ideal S128x64 .bf16) = aW1 m c := by
  show StableHlo.after hostOps0 (W0 m ρ c) (Proc.devRef .tc main_call0_v0) = _
  after_results <;> rfl
theorem w1_w2 : (W1 m ρ c (Proc.devRef .tc main_call0_v1) : Vec Ideal S64x64 .bf16) = aW2 m c := by
  show StableHlo.after hostOps0 (W0 m ρ c) (Proc.devRef .tc main_call0_v1) = _
  after_results <;> rfl
theorem w1_w3 : (W1 m ρ c (Proc.devRef .tc main_call0_v2) : Vec Ideal S64x16 .bf16) = aW3 m c := by
  show StableHlo.after hostOps0 (W0 m ρ c) (Proc.devRef .tc main_call0_v2) = _
  after_results <;> rfl

/-! ## After the first call (the support x · W1) -/

theorem w2_s1 : (W2 m ρ c (Proc.devRef .tc main_call0_v3) : Vec Ideal S10000x64 .bf16)
    = mm (M := 10000) (K := 128) (N := 64) (aX m c) (aW1 m c) := by
  refine (W2_arr m ρ c 2).trans ((R0.final2 (V1 m ρ) c).trans ?_)
  show mm (W1 m ρ c (Proc.devRef .tc main_arg0)) (W1 m ρ c (Proc.devRef .tc main_call0_v0)) = _
  rw [w1_x, w1_w1]
theorem w2_adj : (W2 m ρ c (Proc.devRef .tc main_arg1) : Vec Ideal S10000x10000 .f32) = aAdj m c :=
  (W2_of_ne m ρ c main_arg1 (by decide)).trans (w1_adj m ρ c)
theorem w2_b1 : (W2 m ρ c (Proc.devRef .tc main_arg3) : Vec Ideal S64 .f32) = aB1 m c :=
  (W2_of_ne m ρ c main_arg3 (by decide)).trans (w1_b1 m ρ c)
theorem w2_b2 : (W2 m ρ c (Proc.devRef .tc main_arg5) : Vec Ideal S64 .f32) = aB2 m c :=
  (W2_of_ne m ρ c main_arg5 (by decide)).trans (w1_b2 m ρ c)
theorem w2_b3 : (W2 m ρ c (Proc.devRef .tc main_arg7) : Vec Ideal S16 .f32) = aB3 m c :=
  (W2_of_ne m ρ c main_arg7 (by decide)).trans (w1_b3 m ρ c)
theorem w2_w2 : (W2 m ρ c (Proc.devRef .tc main_call0_v1) : Vec Ideal S64x64 .bf16) = aW2 m c :=
  (W2_of_ne m ρ c main_call0_v1 (by decide)).trans (w1_w2 m ρ c)
theorem w2_w3 : (W2 m ρ c (Proc.devRef .tc main_call0_v2) : Vec Ideal S64x16 .bf16) = aW3 m c :=
  (W2_of_ne m ρ c main_call0_v2 (by decide)).trans (w1_w3 m ρ c)

/-! ## After the second host stretch (the biases recast as rows) -/

theorem w3_adj : (W3 m ρ c (Proc.devRef .tc main_arg1) : Vec Ideal S10000x10000 .f32) = aAdj m c := by
  refine Eq.trans ?_ (w2_adj m ρ c)
  show StableHlo.after hostOps1 (W2 m ρ c) (Proc.devRef .tc main_arg1) = _
  after_results <;> rfl
theorem w3_s1 : (W3 m ρ c (Proc.devRef .tc main_call0_v3) : Vec Ideal S10000x64 .bf16)
    = mm (M := 10000) (K := 128) (N := 64) (aX m c) (aW1 m c) := by
  refine Eq.trans ?_ (w2_s1 m ρ c)
  show StableHlo.after hostOps1 (W2 m ρ c) (Proc.devRef .tc main_call0_v3) = _
  after_results <;> rfl
theorem w3_w2 : (W3 m ρ c (Proc.devRef .tc main_call0_v1) : Vec Ideal S64x64 .bf16) = aW2 m c := by
  refine Eq.trans ?_ (w2_w2 m ρ c)
  show StableHlo.after hostOps1 (W2 m ρ c) (Proc.devRef .tc main_call0_v1) = _
  after_results <;> rfl
theorem w3_w3 : (W3 m ρ c (Proc.devRef .tc main_call0_v2) : Vec Ideal S64x16 .bf16) = aW3 m c := by
  refine Eq.trans ?_ (w2_w3 m ρ c)
  show StableHlo.after hostOps1 (W2 m ρ c) (Proc.devRef .tc main_call0_v2) = _
  after_results <;> rfl
theorem w3_b1 : (W3 m ρ c (Proc.devRef .tc main_call0_v4) : Vec Ideal S1x64 .f32) = rowOf (D := 64) (aB1 m c) := by
  refine Eq.trans ?_ ((congrArg (fun b => shapeCast S1x64 b shapeCasts_S64_S1x64) (w2_b1 m ρ c)).trans (reshape_row _ _))
  show StableHlo.after hostOps1 (W2 m ρ c) (Proc.devRef .tc main_call0_v4) = _
  after_results <;> rfl
theorem w3_b2 : (W3 m ρ c (Proc.devRef .tc main_call0_v5) : Vec Ideal S1x64 .f32) = rowOf (D := 64) (aB2 m c) := by
  refine Eq.trans ?_ ((congrArg (fun b => shapeCast S1x64 b shapeCasts_S64_S1x64) (w2_b2 m ρ c)).trans (reshape_row _ _))
  show StableHlo.after hostOps1 (W2 m ρ c) (Proc.devRef .tc main_call0_v5) = _
  after_results <;> rfl
theorem w3_b3 : (W3 m ρ c (Proc.devRef .tc main_call0_v6) : Vec Ideal S1x16 .f32) = rowOf (D := 16) (aB3 m c) := by
  refine Eq.trans ?_ ((congrArg (fun b => shapeCast S1x16 b shapeCasts_S16_S1x16) (w2_b3 m ρ c)).trans (reshape_row _ _))
  show StableHlo.after hostOps1 (W2 m ρ c) (Proc.devRef .tc main_call0_v6) = _
  after_results <;> rfl

/-! ## After the second call (the first layer times W2, and the adjacency copy) -/

/-- The first layer's result times W2, as the specification names it. -/
theorem w4_s2 : (W4 m ρ c (Proc.devRef .tc main_call0_v7_0) : Vec Ideal S10000x64 .bf16)
    = net2 (N := 10000) (K := 128) (D := 64) (E := 64) (aX m c) (aAdj m c) (aW1 m c) (aB1 m c) (aW2 m c) := by
  refine (W4_arr m ρ c 4).trans ((R1.final4 (V3 m ρ) c).trans ?_)
  show layer (W3 m ρ c (Proc.devRef .tc main_arg1)) (W3 m ρ c (Proc.devRef .tc main_call0_v3))
    (W3 m ρ c (Proc.devRef .tc main_call0_v4)) (W3 m ρ c (Proc.devRef .tc main_call0_v1)) = _
  rw [w3_adj, w3_s1, w3_b1, w3_w2]
  rfl
theorem w4_adjb : (W4 m ρ c (Proc.devRef .tc main_call0_v7_1) : Vec Ideal S10000x10000 .bf16) = aAdj m c := by
  refine (W4_arr m ρ c 5).trans ((R1.final5 (V3 m ρ) c).trans ?_)
  exact w3_adj m ρ c
theorem w4_w3 : (W4 m ρ c (Proc.devRef .tc main_call0_v2) : Vec Ideal S64x16 .bf16) = aW3 m c :=
  (W4_of_ne m ρ c main_call0_v2 (by decide)).trans (w3_w3 m ρ c)
theorem w4_b2 : (W4 m ρ c (Proc.devRef .tc main_call0_v5) : Vec Ideal S1x64 .f32) = rowOf (D := 64) (aB2 m c) :=
  (W4_of_ne m ρ c main_call0_v5 (by decide)).trans (w3_b2 m ρ c)
theorem w4_b3 : (W4 m ρ c (Proc.devRef .tc main_call0_v6) : Vec Ideal S1x16 .f32) = rowOf (D := 16) (aB3 m c) :=
  (W4_of_ne m ρ c main_call0_v6 (by decide)).trans (w3_b3 m ρ c)

/-! ## After the third call (the second layer times W3) -/

theorem w5_s3 : (W5 m ρ c (Proc.devRef .tc main_call0_v8) : Vec Ideal S10000x16 .bf16)
    = net3 (N := 10000) (K := 128) (D := 64) (E := 64) (E' := 16) (aX m c) (aAdj m c) (aW1 m c) (aB1 m c) (aW2 m c) (aB2 m c) (aW3 m c) := by
  refine (W5_arr m ρ c 4).trans ((R2.final4 (V4 m ρ) c).trans ?_)
  show layer (W4 m ρ c (Proc.devRef .tc main_call0_v7_1)) (W4 m ρ c (Proc.devRef .tc main_call0_v7_0))
    (W4 m ρ c (Proc.devRef .tc main_call0_v5)) (W4 m ρ c (Proc.devRef .tc main_call0_v2)) = _
  rw [w4_adjb, w4_s2, w4_b2, w4_w3]
  rfl
/-- The adjacency copy is an input of the third call: left as found. -/
theorem w5_adjb : (W5 m ρ c (Proc.devRef .tc main_call0_v7_1) : Vec Ideal S10000x10000 .bf16) = aAdj m c :=
  ((W5_arr m ρ c 0).trans (((dat2 (V4 m ρ) c).arrAt_in 0 rfl _).trans (A_eq2 (V4 m ρ) c 0))).trans (w4_adjb m ρ c)
theorem w5_b3 : (W5 m ρ c (Proc.devRef .tc main_call0_v6) : Vec Ideal S1x16 .f32) = rowOf (D := 16) (aB3 m c) :=
  (W5_of_ne m ρ c main_call0_v6 (by decide)).trans (w4_b3 m ρ c)

/-! ## After the fourth call: the result -/

/-- THE RESULT ARRAY after the run: the log-softmax, in the kernel's association, of the three-layer network's last
    pre-activation of the launched arguments. -/
theorem result : (W6 m ρ c (Proc.devRef .tc main_v0) : Vec Ideal S10000x16 .f32)
    = lsmK (logits (N := 10000) (K := 128) (D := 64) (E := 64) (E' := 16) (aX m c) (aAdj m c) (aW1 m c) (aB1 m c) (aW2 m c) (aB2 m c) (aW3 m c) (aB3 m c)) := by
  refine (W6_arr m ρ c 3).trans ((R3.final3 (V5 m ρ) c).trans ?_)
  show lsmK (pre (W5 m ρ c (Proc.devRef .tc main_call0_v7_1)) (W5 m ρ c (Proc.devRef .tc main_call0_v8))
    (W5 m ρ c (Proc.devRef .tc main_call0_v6))) = _
  rw [w5_adjb, w5_s3, w5_b3]
  rfl

end Cert.KernelIdeal.Chain

end
-- ==== Proof.RefValue.lean ====
/-
  The reference program's result, index by index, is the log-softmax (in the reference's association) of the
  three-layer network's last pre-activation.
-/
import proofs.«177736_g29712583753982_cont_8to1_b_47_6_alg».proof.Proof.RefRead
import proofs.«177736_g29712583753982_cont_8to1_b_47_6_alg».proof.Proof.Spec
import proofs.«177736_g29712583753982_cont_8to1_b_47_6_alg».proof.Proof.LibRowsByCols

noncomputable section

namespace Cert.ReferenceIdeal.RefValue

open Idealize.ShloMosaic Idealize.ShloMosaic.ValueIdx Cert.ReferenceIdeal Cert.ReferenceIdeal.ReadP

open Cert.Gcn

/-! ## The specification's definitions at an index -/

theorem mm_apply {M K N : Nat} (l : A2 M K) (r : A2 K N) (j : (Sh2 M N).Idx) :
    mm l r j = ∑ k : Fin K, l (ix2 (j 0) k) * r (ix2 k (j 1)) := rfl

theorem pre_apply {M K D : Nat} (A : A2 M K) (S : A2 K D) (b : A2 1 D) (j : (Sh2 M D).Idx) :
    pre A S b j = mm A S j + b (ix2 0 (j 1)) := rfl

theorem hid_apply {M K D : Nat} (A : A2 M K) (S : A2 K D) (b : A2 1 D) (j : (Sh2 M D).Idx) :
    hid A S b j = max (pre A S b j) 0 := rfl

/-- Two matrix indices with the same coordinates are one index. -/
theorem eq2 {n0 n1 : Nat} (j j' : (Sh2 n0 n1).Idx) (h0 : (j 0).val = (j' 0).val) (h1 : (j 1).val = (j' 1).val) : j = j' :=
  funext fun a => Fin.ext (by match a with | ⟨0, _⟩ => exact h0 | ⟨1, _⟩ => exact h1)

/-- Two vector indices with the same coordinate are one index. -/
theorem eq1 {n : Nat} (j j' : (Sh1 n).Idx) (h0 : (j 0).val = (j' 0).val) : j = j' :=
  funext fun a => Fin.ext (by match a with | ⟨0, _⟩ => exact h0)

/-! ## The first layer -/

/-- The first product: x · W1. -/
theorem v0_eq (x : FVec Ideal S10000x128 .f32) (W1 : FVec Ideal S128x64 .f32) :
    val_main_v0 (F := Ideal) x W1 = mm (M := 10000) (K := 128) (N := 64) x W1 := by
  funext i
  rw [val_main_v0_apply, mm_apply]
  exact Finset.sum_congr rfl fun k _ => congrArg₂ (· * ·) (congrArg x (eq2 _ _ rfl rfl)) (congrArg W1 (eq2 _ _ rfl rfl))

/-- The first layer before the max: adj · (x · W1) + b1. -/
theorem v4_eq (x : FVec Ideal S10000x128 .f32) (adj : FVec Ideal S10000x10000 .f32) (W1 : FVec Ideal S128x64 .f32)
    (b1 : FVec Ideal S64 .f32) :
    val_main_v4 (F := Ideal) x adj W1 b1
      = pre (M := 10000) (K := 10000) (D := 64) adj (mm (M := 10000) (K := 128) (N := 64) x W1) (rowOf b1) := by
  funext i
  rw [val_main_v4_apply, Ideal.addf_def, val_main_v1_apply, val_main_v3_apply, val_main_v2_apply, v0_eq, pre_apply, mm_apply]
  exact congrArg₂ (· + ·)
    (Finset.sum_congr rfl fun k _ => congrArg₂ (· * ·) (congrArg adj (eq2 _ _ rfl rfl)) (congrArg _ (eq2 _ _ rfl rfl)))
    (congrArg b1 (eq1 _ _ rfl))

/-- The first hidden matrix: max (adj · (x · W1) + b1, 0). -/
theorem v6_eq (x : FVec Ideal S10000x128 .f32) (adj : FVec Ideal S10000x10000 .f32) (W1 : FVec Ideal S128x64 .f32)
    (b1 : FVec Ideal S64 .f32) :
    val_main_v6 (F := Ideal) x adj W1 b1
      = hid (M := 10000) (K := 10000) (D := 64) adj (mm (M := 10000) (K := 128) (N := 64) x W1) (rowOf b1) := by
  funext i
  rw [val_main_v6_apply, Ideal.maximumf_def, val_main_v5_apply, val_main_cst_apply, Ideal.ofBits_def, Ideal.ofBits_zero_f32,
    v4_eq, hid_apply]

/-- The second layer's support: the first hidden matrix times W2. -/
theorem v7_eq (x : FVec Ideal S10000x128 .f32) (adj : FVec Ideal S10000x10000 .f32) (W1 : FVec Ideal S128x64 .f32)
    (b1 : FVec Ideal S64 .f32) (W2 : FVec Ideal S64x64 .f32) :
    val_main_v7 (F := Ideal) x adj W1 b1 W2 = net2 (N := 10000) (K := 128) (D := 64) (E := 64) x adj W1 b1 W2 := by
  funext i
  rw [val_main_v7_apply, v6_eq]
  unfold net2 layer
  rw [mm_apply]
  exact Finset.sum_congr rfl fun k _ => congrArg₂ (· * ·) (congrArg _ (eq2 _ _ rfl rfl)) (congrArg W2 (eq2 _ _ rfl rfl))

/-! ## The second layer -/

theorem v11_eq (x : FVec Ideal S10000x128 .f32) (adj : FVec Ideal S10000x10000 .f32) (W1 : FVec Ideal S128x64 .f32)
    (b1 : FVec Ideal S64 .f32) (W2 : FVec Ideal S64x64 .f32) (b2 : FVec Ideal S64 .f32) :
    val_main_v11 (F := Ideal) x adj W1 b1 W2 b2
      = pre (M := 10000) (K := 10000) (D := 64) adj (net2 (N := 10000) (K := 128) (D := 64) (E := 64) x adj W1 b1 W2) (rowOf b2) := by
  funext i
  rw [val_main_v11_apply, Ideal.addf_def, val_main_v8_apply, val_main_v10_apply, val_main_v9_apply, v7_eq, pre_apply, mm_apply]
  exact congrArg₂ (· + ·)
    (Finset.sum_congr rfl fun k _ => congrArg₂ (· * ·) (congrArg adj (eq2 _ _ rfl rfl)) (congrArg _ (eq2 _ _ rfl rfl)))
    (congrArg b2 (eq1 _ _ rfl))

theorem v13_eq (x : FVec Ideal S10000x128 .f32) (adj : FVec Ideal S10000x10000 .f32) (W1 : FVec Ideal S128x64 .f32)
    (b1 : FVec Ideal S64 .f32) (W2 : FVec Ideal S64x64 .f32) (b2 : FVec Ideal S64 .f32) :
    val_main_v13 (F := Ideal) x adj W1 b1 W2 b2
      = hid (M := 10000) (K := 10000) (D := 64) adj (net2 (N := 10000) (K := 128) (D := 64) (E := 64) x adj W1 b1 W2) (rowOf b2) := by
  funext i
  rw [val_main_v13_apply, Ideal.maximumf_def, val_main_v12_apply, val_main_cst_0_apply, Ideal.ofBits_def, Ideal.ofBits_zero_f32,
    v11_eq, hid_apply]

/-- The third layer's support: the second hidden matrix times W3. -/
theorem v14_eq (x : FVec Ideal S10000x128 .f32) (adj : FVec Ideal S10000x10000 .f32) (W1 : FVec Ideal S128x64 .f32)
    (b1 : FVec Ideal S64 .f32) (W2 : FVec Ideal S64x64 .f32) (b2 : FVec Ideal S64 .f32) (W3 : FVec Ideal S64x16 .f32) :
    val_main_v14 (F := Ideal) x adj W1 b1 W2 b2 W3
      = net3 (N := 10000) (K := 128) (D := 64) (E := 64) (E' := 16) x adj W1 b1 W2 b2 W3 := by
  funext i
  rw [val_main_v14_apply, v13_eq]
  unfold net3 layer
  rw [mm_apply]
  exact Finset.sum_congr rfl fun k _ => congrArg₂ (· * ·) (congrArg _ (eq2 _ _ rfl rfl)) (congrArg W3 (eq2 _ _ rfl rfl))

/-! ## The third layer -/

/-- The last pre-activation: adj · (third support) + b3. -/
theorem v18_eq (x : FVec Ideal S10000x128 .f32) (adj : FVec Ideal S10000x10000 .f32) (W1 : FVec Ideal S128x64 .f32)
    (b1 : FVec Ideal S64 .f32) (W2 : FVec Ideal S64x64 .f32) (b2 : FVec Ideal S64 .f32) (W3 : FVec Ideal S64x16 .f32)
    (b3 : FVec Ideal S16 .f32) :
    val_main_v18 (F := Ideal) x adj W1 b1 W2 b2 W3 b3
      = logits (N := 10000) (K := 128) (D := 64) (E := 64) (E' := 16) x adj W1 b1 W2 b2 W3 b3 := by
  funext i
  rw [val_main_v18_apply, Ideal.addf_def, val_main_v15_apply, val_main_v17_apply, val_main_v16_apply, v14_eq]
  unfold logits
  rw [pre_apply, mm_apply]
  exact congrArg₂ (· + ·)
    (Finset.sum_congr rfl fun k _ => congrArg₂ (· * ·) (congrArg adj (eq2 _ _ rfl rfl)) (congrArg _ (eq2 _ _ rfl rfl)))
    (congrArg b3 (eq1 _ _ rfl))

/-! ## The log-softmax tail -/

/-- The word of −∞ reads as the bottom element. -/
theorem ofBits_neg_inf : Ideal.ofBits .f32 0xFF800000#32 = (⊥ : EReal) := by simp [Ideal.ofBits, Ideal.ieee]

/-- A row index with the column k put back is (row, k). -/
theorem lift_ix2 (h : S10000x16.Reduces [1] S10000) (j : S10000.Idx) (k : Fin (S10000x16.size 1)) :
    h.lift j k = ix2 (j 0) (⟨k.val, k.isLt⟩ : Fin 16) := by
  funext c; apply Fin.ext
  fin_cases c <;> rfl

/-- The reduce with a maximum body from −∞ over the columns: the row's maximum. -/
theorem c0v0_eq (x : FVec Ideal S10000x128 .f32) (adj : FVec Ideal S10000x10000 .f32) (W1 : FVec Ideal S128x64 .f32)
    (b1 : FVec Ideal S64 .f32) (W2 : FVec Ideal S64x64 .f32) (b2 : FVec Ideal S64 .f32) (W3 : FVec Ideal S64x16 .f32)
    (b3 : FVec Ideal S16 .f32) :
    val_main_call0_v0 (F := Ideal) x adj W1 b1 W2 b2 W3 b3 = fun i => rowMax (logits (N := 10000) (K := 128) (D := 64) (E := 64) (E' := 16) x adj W1 b1 W2 b2 W3 b3) (i 0) := by
  funext i
  unfold val_main_call0_v0
  rw [v18_eq]
  generalize (logits (N := 10000) (K := 128) (D := 64) (E := 64) (E' := 16) x adj W1 b1 W2 b2 W3 b3) = h
  have hr : S10000x16.Reduces [1] S10000 := by decide
  rw [Host.reduce_eq_fold_single (FloatOps.maximumf (F := Ideal) (φ := .f32)) h _ _ hr _ i, val_main_call0_cst_apply, Ideal.ofBits_def, ofBits_neg_inf]
  unfold rowMax
  have hf : (h ∘ hr.lift i) = fun k : Fin 16 => h (ix2 (i 0) k) := funext fun k => congrArg h (lift_ix2 hr i k)
  exact congrArg (fun f => Finset.fold max (⊥ : EReal) f (Finset.univ : Finset (Fin 16))) hf

/-- The maximum of −∞ and the row's maximum is the row's maximum. -/
theorem c0v2_eq (x : FVec Ideal S10000x128 .f32) (adj : FVec Ideal S10000x10000 .f32) (W1 : FVec Ideal S128x64 .f32)
    (b1 : FVec Ideal S64 .f32) (W2 : FVec Ideal S64x64 .f32) (b2 : FVec Ideal S64 .f32) (W3 : FVec Ideal S64x16 .f32)
    (b3 : FVec Ideal S16 .f32) :
    val_main_call0_v2 (F := Ideal) x adj W1 b1 W2 b2 W3 b3 = fun i => rowMax (logits (N := 10000) (K := 128) (D := 64) (E := 64) (E' := 16) x adj W1 b1 W2 b2 W3 b3) (i 0) := by
  funext i
  rw [val_main_call0_v2_apply, Ideal.maximumf_def, val_main_call0_v1_apply, val_main_call0_cst_0_apply, Ideal.ofBits_def,
    ofBits_neg_inf, c0v0_eq]
  exact max_eq_right bot_le

/-- The shifted logits h − M. -/
theorem c0v5_eq (x : FVec Ideal S10000x128 .f32) (adj : FVec Ideal S10000x10000 .f32) (W1 : FVec Ideal S128x64 .f32)
    (b1 : FVec Ideal S64 .f32) (W2 : FVec Ideal S64x64 .f32) (b2 : FVec Ideal S64 .f32) (W3 : FVec Ideal S64x16 .f32)
    (b3 : FVec Ideal S16 .f32) :
    val_main_call0_v5 (F := Ideal) x adj W1 b1 W2 b2 W3 b3
      = fun j => (logits (N := 10000) (K := 128) (D := 64) (E := 64) (E' := 16) x adj W1 b1 W2 b2 W3 b3) j - rowMax (logits (N := 10000) (K := 128) (D := 64) (E := 64) (E' := 16) x adj W1 b1 W2 b2 W3 b3) (j 0) := by
  funext j
  rw [val_main_call0_v5_apply, Ideal.subf_def, val_main_call0_v4_apply, val_main_call0_v3_apply, c0v2_eq, v18_eq]
  rfl

/-- The row sums Σ exp (h − M). -/
theorem c0v7_eq (x : FVec Ideal S10000x128 .f32) (adj : FVec Ideal S10000x10000 .f32) (W1 : FVec Ideal S128x64 .f32)
    (b1 : FVec Ideal S64 .f32) (W2 : FVec Ideal S64x64 .f32) (b2 : FVec Ideal S64 .f32) (W3 : FVec Ideal S64x16 .f32)
    (b3 : FVec Ideal S16 .f32) :
    val_main_call0_v7 (F := Ideal) x adj W1 b1 W2 b2 W3 b3
      = fun i => ∑ k : Fin 16, Ideal.exp ((logits (N := 10000) (K := 128) (D := 64) (E := 64) (E' := 16) x adj W1 b1 W2 b2 W3 b3) (ix2 (i 0) k) - rowMax (logits (N := 10000) (K := 128) (D := 64) (E := 64) (E' := 16) x adj W1 b1 W2 b2 W3 b3) (i 0)) := by
  funext i
  rw [val_main_call0_v7_apply, val_main_call0_cst_1_apply, Ideal.ofBits_def, Ideal.ofBits_zero_f32, zero_add]
  refine Finset.sum_congr rfl fun k _ => ?_
  rw [val_main_call0_v6_apply, Ideal.hostUnary_exp_def, c0v5_eq,
    show idx_main_call0_v7 i k = ix2 (i 0) k from eq2 _ _ rfl rfl]
  rfl

/-- The broadcast log Σ exp (h − M). -/
theorem c0v10_eq (x : FVec Ideal S10000x128 .f32) (adj : FVec Ideal S10000x10000 .f32) (W1 : FVec Ideal S128x64 .f32)
    (b1 : FVec Ideal S64 .f32) (W2 : FVec Ideal S64x64 .f32) (b2 : FVec Ideal S64 .f32) (W3 : FVec Ideal S64x16 .f32)
    (b3 : FVec Ideal S16 .f32) :
    val_main_call0_v10 (F := Ideal) x adj W1 b1 W2 b2 W3 b3 = fun j => rowLse (logits (N := 10000) (K := 128) (D := 64) (E := 64) (E' := 16) x adj W1 b1 W2 b2 W3 b3) (j 0) := by
  funext j
  rw [val_main_call0_v10_apply, val_main_call0_v9_apply, Ideal.hostUnary_log_def, val_main_call0_v8_apply, c0v7_eq]
  rfl

/-- The reference's last stage, as a function of the eight argument arrays, is the specification's network. -/
theorem val_eq (x : FVec Ideal S10000x128 .f32) (adj : FVec Ideal S10000x10000 .f32) (W1 : FVec Ideal S128x64 .f32)
    (b1 : FVec Ideal S64 .f32) (W2 : FVec Ideal S64x64 .f32) (b2 : FVec Ideal S64 .f32) (W3 : FVec Ideal S64x16 .f32)
    (b3 : FVec Ideal S16 .f32) :
    val_main_v19 (F := Ideal) x adj W1 b1 W2 b2 W3 b3
      = Cert.Gcn.lsmR (Cert.Gcn.logits (N := 10000) (K := 128) (D := 64) (E := 64) (E' := 16) x adj W1 b1 W2 b2 W3 b3) := by
  funext j
  rw [val_main_v19_apply, Ideal.subf_def, c0v5_eq, c0v10_eq]
  rfl

end Cert.ReferenceIdeal.RefValue

end
-- ==== Proof.Finite.lean ====
/-
  Finite inputs are real-valued arrays.

  The precondition says, of each of the eight argument arrays, that every entry's absolute value is below +infinity.
  An extended real whose absolute value max (x, -x) is below the top element is neither the top nor the bottom
  element, so it is a real number.  The conjunction over the arrays and the "for all entries" inside each conjunct
  are read off the printed predicate one operation at a time.
-/
import proofs.«177736_g29712583753982_cont_8to1_b_47_6_alg».proof.Pre_finite_inputs
import proofs.«177736_g29712583753982_cont_8to1_b_47_6_alg».proof.Proof.Gen.Pre_finite_inputs
import proofs.«177736_g29712583753982_cont_8to1_b_47_6_alg».proof.Proof.Spec
import Idealize.ShloMosaic.Lib.ReduceAll
import Idealize.ShloMosaic.Lib.ValueIdx

noncomputable section

namespace Cert.Finite

open Idealize.ShloMosaic Idealize.ShloMosaic.ValueIdx Cert.Pre_finite_inputs

/-- The shape of a scalar has exactly one index. -/
instance subsingleton_scalarIdx : Subsingleton S_.Idx := ⟨fun _ _ => funext fun d => d.elim0⟩

/-- The word of +infinity reads as the top element of the extended reals. -/
theorem inf_word_eq_top : Ideal.ofBits .f32 0x7F800000#32 = (⊤ : EReal) := by
  simp [Ideal.ofBits, Ideal.ieee]

/-- An extended real whose absolute value max (x, -x) lies strictly below the top element is a real number:
    at the top element x itself is the top, at the bottom element -x is. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One entry: if the compare "|x| < +infinity" gives the word 1, x is a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  apply real_of_abs_lt_top
  have h' : Ideal.cmp .olt (max (x : EReal) (-(x : EReal))) (Ideal.ofBits .f32 0x7F800000#32) = 1#1 := h
  rw [inf_word_eq_top] at h'
  unfold Ideal.cmp at h'
  by_contra hn
  simp [hn] at h'

/-- An array every entry of which passes the compare against the broadcast +infinity, as the conjunction over all
    entries says when it is 1, is real-valued. -/
theorem isReal_of_all {S : Shape} {axes : List (Fin S.rank)} (a : FVec Ideal S .f32)
    (hb : S_.BroadcastsInDim S (![] : Fin 0 → Fin S.rank)) (hr : S.ReducesTo axes S_) (hu : 0 < S_.numel) (init : IVec S_ 1)
    (h : Host.reduce IntOp.andi
          (cmpf .olt (Host.absf a) (broadcastInDim S ![] hb (constant S_ .f32 0x7F800000#32))) init hr hu ix0 = 1#1) :
    Cert.Gcn.IsReal (S := S) a := by
  intro i
  exact real_of_cmp (a i) (Host.reduce_andi_all _ init hr hu ix0 h i)

/-- If the precondition's predicate is all ones on the eight arrays, every entry of every array is a real number. -/
theorem args_real (a0 : FVec Ideal S10000x128 .f32) (a1 : FVec Ideal S10000x10000 .f32) (a2 : FVec Ideal S128x64 .f32)
    (a3 : FVec Ideal S64 .f32) (a4 : FVec Ideal S64x64 .f32) (a5 : FVec Ideal S64 .f32) (a6 : FVec Ideal S64x16 .f32)
    (a7 : FVec Ideal S16 .f32)
    (h : Cert.Pre_finite_inputs.fn (F := Ideal) a0 a1 a2 a3 a4 a5 a6 a7 = fun _ => 1#1) :
    Cert.Gcn.IsReal (S := S10000x128) a0 ∧ Cert.Gcn.IsReal (S := S10000x10000) a1 ∧ Cert.Gcn.IsReal (S := S128x64) a2
      ∧ Cert.Gcn.IsReal (S := S64) a3 ∧ Cert.Gcn.IsReal (S := S64x64) a4 ∧ Cert.Gcn.IsReal (S := S64) a5
      ∧ Cert.Gcn.IsReal (S := S64x16) a6 ∧ Cert.Gcn.IsReal (S := S16) a7 := by
  have h0 := congrFun h ix0
  dsimp only [fn, fn_part1, fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all a0 _ _ _ _ e0, isReal_of_all a1 _ _ _ _ e1, isReal_of_all a2 _ _ _ _ e2, isReal_of_all a3 _ _ _ _ e3,
    isReal_of_all a4 _ _ _ _ e4, isReal_of_all a5 _ _ _ _ e5, isReal_of_all a6 _ _ _ _ e6, isReal_of_all a7 _ _ _ _ e7⟩

end Cert.Finite

end
-- ==== Proof.lean ====
/-
  Kernel and reference compute one function on finite inputs, over the extended reals.

  Both programs stack three graph-convolution layers over a dense adjacency A and end in a row-wise log-softmax:
      s1 = x · W1,   s2 = max (A · s1 + b1, 0) · W2,   s3 = max (A · s2 + b2, 0) · W3,   h = A · s3 + b3.
  The kernel forms them in four pallas_calls, the adjacency streamed in row blocks (200 rows, then 400) with the small
  support matrices whole; changes of float format are the identity on the extended reals, a blocked product is the same
  finite sum, and a row of a layer depends on the adjacency only through that row, so the blocks written back are the
  blocks of the whole-matrix layer.  The two programs differ only in how the log-softmax is associated: the kernel
  returns  h − (log Σ exp (h − M) + M),  the reference  (h − M) − log Σ exp (h − M),  M the row maximum.  On finite inputs
  every stage is real-valued (finite sums and products of reals, maxima of reals), so M is real, and subtracting a
  real commutes with addition: the two results are equal entry by entry.

  The kernel's run with its result array named is the launch theorem over the generated segments; the values at the
  segment boundaries are walked in Proof/Chain.lean from the per-call value lemmas of Proof/Region0 … Region3 over the
  payload lemmas of Proof/Payloads.lean; the reference's stages are read in Proof/RefValue.lean; the precondition gives
  real-valued arguments in Proof/Finite.lean; the mathematics is Proof/Spec.lean.
-/
import proofs.«177736_g29712583753982_cont_8to1_b_47_6_alg».proof.Defs
import proofs.«177736_g29712583753982_cont_8to1_b_47_6_alg».proof.Proof.Gen.Kernel
import proofs.«177736_g29712583753982_cont_8to1_b_47_6_alg».proof.Proof.Gen.Kernel.Skeleton
import proofs.«177736_g29712583753982_cont_8to1_b_47_6_alg».proof.Proof.Gen.Kernel.Launch
import proofs.«177736_g29712583753982_cont_8to1_b_47_6_alg».proof.Proof.Gen.Kernel.Points
import proofs.«177736_g29712583753982_cont_8to1_b_47_6_alg».proof.Proof.Gen.Kernel.Frame
import proofs.«177736_g29712583753982_cont_8to1_b_47_6_alg».proof.Proof.Gen.KernelIdeal
import proofs.«177736_g29712583753982_cont_8to1_b_47_6_alg».proof.Proof.Gen.KernelIdeal.Skeleton
import proofs.«177736_g29712583753982_cont_8to1_b_47_6_alg».proof.Proof.Gen.KernelIdeal.Launch
import proofs.«177736_g29712583753982_cont_8to1_b_47_6_alg».proof.Proof.Gen.KernelIdeal.Points
import proofs.«177736_g29712583753982_cont_8to1_b_47_6_alg».proof.Proof.Gen.KernelIdeal.Frame
import proofs.«177736_g29712583753982_cont_8to1_b_47_6_alg».proof.Proof.Gen.ReferenceIdeal
import proofs.«177736_g29712583753982_cont_8to1_b_47_6_alg».proof.Proof.Gen.Pre_finite_inputs
import proofs.«177736_g29712583753982_cont_8to1_b_47_6_alg».proof.Proof.Spec
import proofs.«177736_g29712583753982_cont_8to1_b_47_6_alg».proof.Proof.KernelRun
import proofs.«177736_g29712583753982_cont_8to1_b_47_6_alg».proof.Proof.Chain
import proofs.«177736_g29712583753982_cont_8to1_b_47_6_alg».proof.Proof.RefRun
import proofs.«177736_g29712583753982_cont_8to1_b_47_6_alg».proof.Proof.RefRead
import proofs.«177736_g29712583753982_cont_8to1_b_47_6_alg».proof.Proof.RefValue
import proofs.«177736_g29712583753982_cont_8to1_b_47_6_alg».proof.Proof.Finite
import Idealize.ShloMosaic.Adequacy
import Idealize.ShloMosaic.Init

noncomputable section

namespace Cert.Proof

open Idealize.ShloMosaic Idealize.ShloMosaic.TcCoe Idealize.SL.Sem Cert.Gcn

/-- The word-level kernel runs and leaves its arguments as launched: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- On finite inputs both programs end with the log-softmax of the same real-valued pre-activation, and its two
    associations agree there. -/
theorem algebraic : Cert.algebraic_KernelIdeal_ReferenceIdeal := by
  intro m ρ m' ρ' hpre hagree
  refine ⟨fun c => Cert.Gcn.lsmK (Cert.Gcn.logits (N := 10000) (K := 128) (D := 64) (E := 64) (E' := 16)
      (Cert.KernelIdeal.Chain.aX m c) (Cert.KernelIdeal.Chain.aAdj m c) (Cert.KernelIdeal.Chain.aW1 m c) (Cert.KernelIdeal.Chain.aB1 m c)
      (Cert.KernelIdeal.Chain.aW2 m c) (Cert.KernelIdeal.Chain.aB2 m c) (Cert.KernelIdeal.Chain.aW3 m c) (Cert.KernelIdeal.Chain.aB3 m c)), ?_, ?_⟩
  · exact (θ_run Cert.KernelIdeal.defs _ _).mono
      (fun r h c => ⟨(h c).1.trans (Cert.KernelIdeal.Chain.result m ρ c), (h c).2⟩)
      (Cert.KernelIdeal.GenRun.run_main (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7⟩ := hagree c
    obtain ⟨r0, r1, r2, r3, r4, r5, r6, r7⟩ := Cert.Finite.args_real _ _ _ _ _ _ _ _ (hpre c)
    rw [Cert.ReferenceIdeal.ReadP.val_main_v19_eq, e0, e1, e2, e3, e4, e5, e6, e7, Cert.ReferenceIdeal.RefValue.val_eq]
    exact (Cert.Gcn.lsmK_eq_lsmR (Cert.Gcn.isReal_logits r0 r1 r2 r3 r4 r5 r6 r7)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
